-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384 : Shape := ⟨2, ![16, 16384]⟩
abbrev S16x7x3 : Shape := ⟨3, ![16, 7, 3]⟩
abbrev S512x16 : Shape := ⟨2, ![512, 16]⟩
abbrev S512 : Shape := ⟨1, ![512]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel
  bcast_S_S16x7x3 : S_.BroadcastsInDim S16x7x3 (![] : Fin 0 → Fin S16x7x3.rank)
  reducesTo_S16x7x3_S_d0_1_2 : S16x7x3.ReducesTo [0, 1, 2] S_
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S16x16384 .f32) (main_arg1 : FVec F S16x7x3 .f32) (main_arg2 : IVec S512x16 32) (main_arg3 : IVec S512 32) : IVec S_ 1 :=
  let main_v0 : FVec F S16x16384 .f32 := Host.absf main_arg0
  let main_cst : FVec F S_ .f32 := constant S_ .f32 0x7F800000#32
  let main_v1 : FVec F S16x16384 .f32 := broadcastInDim S16x16384 ![] bcast_S_S16x16384 main_cst
  let main_v2 : IVec S16x16384 1 := cmpf .olt main_v0 main_v1
  let main_c : IVec S_ 1 := constantI S_ 1 1#1
  let main_v3 : IVec S_ 1 := (fun x v => Host.reduce IntOp.andi x v reducesTo_S16x16384_S_d0_1 h_S_) main_v2 main_c
  let main_v4 : FVec F S16x7x3 .f32 := Host.absf main_arg1
  let main_cst_0 : FVec F S_ .f32 := constant S_ .f32 0x7F800000#32
  let main_v5 : FVec F S16x7x3 .f32 := broadcastInDim S16x7x3 ![] bcast_S_S16x7x3 main_cst_0
  let main_v6 : IVec S16x7x3 1 := cmpf .olt main_v4 main_v5
  let main_c_1 : IVec S_ 1 := constantI S_ 1 1#1
  let main_v7 : IVec S_ 1 := (fun x v => Host.reduce IntOp.andi x v reducesTo_S16x7x3_S_d0_1_2 h_S_) main_v6 main_c_1
  let main_v8 : IVec S_ 1 := andi main_v3 main_v7
  let main_c_2 : IVec S_ 32 := constantI S_ 32 0#32
  let main_v9 : IVec S512x16 32 := broadcastInDim S512x16 ![] bcast_S_S512x16 main_c_2
  let main_v10 : IVec S512x16 1 := cmpi .sge main_arg2 main_v9
  let main_c_3 : IVec S_ 1 := constantI S_ 1 1#1
  let main_v11 : IVec S_ 1 := (fun x v => Host.reduce IntOp.andi x v reducesTo_S512x16_S_d0_1 h_S_) main_v10 main_c_3
  let main_v12 : IVec S_ 1 := andi main_v8 main_v11
  main_v12
-- ==== Kernel.lean ====
abbrev S16x16384 : Shape := ⟨2, ![16, 16384]⟩
abbrev S16x7x3 : Shape := ⟨3, ![16, 7, 3]⟩
abbrev S512x16 : Shape := ⟨2, ![512, 16]⟩
abbrev S512 : Shape := ⟨1, ![512]⟩
abbrev S_ : Shape := ⟨0, ![]⟩
abbrev S7 : Shape := ⟨1, ![7]⟩
abbrev S16x512 : Shape := ⟨2, ![16, 512]⟩
abbrev S16x512x1 : Shape := ⟨3, ![16, 512, 1]⟩
abbrev S1x1x7 : Shape := ⟨3, ![1, 1, 7]⟩
abbrev S16x512x7 : Shape := ⟨3, ![16, 512, 7]⟩
abbrev S10 : Shape := ⟨1, ![10]⟩
abbrev S1x512 : Shape := ⟨2, ![1, 512]⟩
abbrev S10x1 : Shape := ⟨2, ![10, 1]⟩
abbrev S10x512 : Shape := ⟨2, ![10, 512]⟩
abbrev S10x16384 : Shape := ⟨2, ![10, 16384]⟩
abbrev S16x8192 : Shape := ⟨2, ![16, 8192]⟩
abbrev S10x8192 : Shape := ⟨2, ![10, 8192]⟩
abbrev S16x7x1 : Shape := ⟨3, ![16, 7, 1]⟩
abbrev S16x7 : Shape := ⟨2, ![16, 7]⟩
abbrev S16x1x8192 : Shape := ⟨3, ![16, 1, 8192]⟩
abbrev S16x7x8192 : Shape := ⟨3, ![16, 7, 8192]⟩
abbrev S1x512x7 : Shape := ⟨3, ![1, 512, 7]⟩
abbrev S512x7 : Shape := ⟨2, ![512, 7]⟩
abbrev S1x7x8192 : Shape := ⟨3, ![1, 7, 8192]⟩
abbrev S7x8192 : Shape := ⟨2, ![7, 8192]⟩
abbrev S512x8192 : Shape := ⟨2, ![512, 8192]⟩
abbrev S16384x10 : Shape := ⟨2, ![16384, 10]⟩

abbrev nBuf : Space → Nat
  | .hbm => 29
  | .vmem => 7
  | .smem => 0
  | _ => 0

abbrev bufTy : (tb : Table) → Fin (tcTables nBuf tb) → BufTy
  | .hbm, ⟨0, _⟩ => ⟨S16x16384, .f32⟩
  | .hbm, ⟨1, _⟩ => ⟨S16x7x3, .f32⟩
  | .hbm, ⟨2, _⟩ => ⟨S512x16, .i32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S512x16, .i32⟩
  | .hbm, ⟨8, _⟩ => ⟨S512x16, .i32⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S7, .i32⟩
  | .hbm, ⟨13, _⟩ => ⟨S16x512, .i32⟩
  | .hbm, ⟨14, _⟩ => ⟨S16x512x1, .i32⟩
  | .hbm, ⟨15, _⟩ => ⟨S1x1x7, .i32⟩
  | .hbm, ⟨16, _⟩ => ⟨S16x512x7, .i32⟩
  | .hbm, ⟨17, _⟩ => ⟨S16x512x7, .i32⟩
  | .hbm, ⟨18, _⟩ => ⟨S16x512x7, .i1⟩
  | .hbm, ⟨19, _⟩ => ⟨S16x512x7, .f32⟩
  | .hbm, ⟨20, _⟩ => ⟨S10, .i32⟩
  | .hbm, ⟨21, _⟩ => ⟨S1x512, .i32⟩
  | .hbm, ⟨22, _⟩ => ⟨S10x1, .i32⟩
  | .hbm, ⟨23, _⟩ => ⟨S10x512, .i32⟩
  | .hbm, ⟨24, _⟩ => ⟨S10x512, .i32⟩
  | .hbm, ⟨25, _⟩ => ⟨S10x512, .i1⟩
  | .hbm, ⟨26, _⟩ => ⟨S10x512, .f32⟩
  | .hbm, ⟨27, _⟩ => ⟨S10x16384, .f32⟩
  | .hbm, ⟨28, _⟩ => ⟨S16384x10, .f32⟩
  | .local _ .vmem, ⟨0, _⟩ => ⟨S16x8192, .f32⟩
  | .local _ .vmem, ⟨1, _⟩ => ⟨S16x8192, .f32⟩
  | .local _ .vmem, ⟨2, _⟩ => ⟨S16x7x3, .f32⟩
  | .local _ .vmem, ⟨3, _⟩ => ⟨S16x512x7, .f32⟩
  | .local _ .vmem, ⟨4, _⟩ => ⟨S10x512, .f32⟩
  | .local _ .vmem, ⟨5, _⟩ => ⟨S10x8192, .f32⟩
  | .local _ .vmem, ⟨6, _⟩ => ⟨S10x8192, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x7x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512x16 : S_.BroadcastsInDim S512x16 (![] : Fin 0 → Fin S512x16.rank)
  transposes_S512x16_S16x512_1_0 : S512x16.Transposes [1, 0] S16x512
  bcast_S16x512_S16x512x1_0_1 : S16x512.BroadcastsInDim S16x512x1 (![0, 1] : Fin 2 → Fin S16x512x1.rank)
  bcast_S7_S1x1x7_2 : S7.BroadcastsInDim S1x1x7 (![2] : Fin 1 → Fin S1x1x7.rank)
  bcast_S16x512x1_S16x512x7_0_1_2 : S16x512x1.BroadcastsInDim S16x512x7 (![0, 1, 2] : Fin 3 → Fin S16x512x7.rank)
  bcast_S1x1x7_S16x512x7_0_1_2 : S1x1x7.BroadcastsInDim S16x512x7 (![0, 1, 2] : Fin 3 → Fin S16x512x7.rank)
  bcast_S512_S1x512_1 : S512.BroadcastsInDim S1x512 (![1] : Fin 1 → Fin S1x512.rank)
  bcast_S10_S10x1_0 : S10.BroadcastsInDim S10x1 (![0] : Fin 1 → Fin S10x1.rank)
  bcast_S1x512_S10x512_0_1 : S1x512.BroadcastsInDim S10x512 (![0, 1] : Fin 2 → Fin S10x512.rank)
  bcast_S10x1_S10x512_0_1 : S10x1.BroadcastsInDim S10x512 (![0, 1] : Fin 2 → Fin S10x512.rank)
  inb_S16x8192_S16x8192_0_0 : ∀ a, (![0, 0] : Fin 2 → Nat) a + S16x8192.size a ≤ S16x8192.size a
  h_S16x8192 : 0 < S16x8192.numel
  inb_S16x7x3_S16x7x3_0_0_0 : ∀ a, (![0, 0, 0] : Fin 3 → Nat) a + S16x7x3.size a ≤ S16x7x3.size a
  h_S16x7x3 : 0 < S16x7x3.numel
  slices_S16x7x3_o0_0_0_S16x7x1 : S16x7x3.Slices ![0, 0, 0] S16x7x1
  shapeCasts_S16x7x1_S16x7 : S16x7x1.ShapeCasts S16x7
  slices_S16x7x3_o0_0_1_S16x7x1 : S16x7x3.Slices ![0, 0, 1] S16x7x1
  slices_S16x7x3_o0_0_2_S16x7x1 : S16x7x3.Slices ![0, 0, 2] S16x7x1
  shapeCasts_S16x8192_S16x1x8192 : S16x8192.ShapeCasts S16x1x8192
  shapeCasts_S16x7_S16x7x1 : S16x7.ShapeCasts S16x7x1
  broadcasts_S16x1x8192_S16x7x8192 : S16x1x8192.Broadcasts S16x7x8192
  broadcasts_S16x7x1_S16x7x8192 : S16x7x1.Broadcasts S16x7x8192
  inb_S16x512x7_S1x512x7_0_0_0 : ∀ a, (![0, 0, 0] : Fin 3 → Nat) a + S1x512x7.size a ≤ S16x512x7.size a
  h_S1x512x7 : 0 < S1x512x7.numel
  shapeCasts_S1x512x7_S512x7 : S1x512x7.ShapeCasts S512x7
  slices_S16x7x8192_o0_0_0_S1x7x8192 : S16x7x8192.Slices ![0, 0, 0] S1x7x8192
  shapeCasts_S1x7x8192_S7x8192 : S1x7x8192.ShapeCasts S7x8192
  inb_S16x512x7_S1x512x7_1_0_0 : ∀ a, (![1, 0, 0] : Fin 3 → Nat) a + S1x512x7.size a ≤ S16x512x7.size a
  slices_S16x7x8192_o1_0_0_S1x7x8192 : S16x7x8192.Slices ![1, 0, 0] S1x7x8192
  inb_S16x512x7_S1x512x7_2_0_0 : ∀ a, (![2, 0, 0] : Fin 3 → Nat) a + S1x512x7.size a ≤ S16x512x7.size a
  slices_S16x7x8192_o2_0_0_S1x7x8192 : S16x7x8192.Slices ![2, 0, 0] S1x7x8192
  inb_S16x512x7_S1x512x7_3_0_0 : ∀ a, (![3, 0, 0] : Fin 3 → Nat) a + S1x512x7.size a ≤ S16x512x7.size a
  slices_S16x7x8192_o3_0_0_S1x7x8192 : S16x7x8192.Slices ![3, 0, 0] S1x7x8192
  inb_S16x512x7_S1x512x7_4_0_0 : ∀ a, (![4, 0, 0] : Fin 3 → Nat) a + S1x512x7.size a ≤ S16x512x7.size a
  slices_S16x7x8192_o4_0_0_S1x7x8192 : S16x7x8192.Slices ![4, 0, 0] S1x7x8192
  inb_S16x512x7_S1x512x7_5_0_0 : ∀ a, (![5, 0, 0] : Fin 3 → Nat) a + S1x512x7.size a ≤ S16x512x7.size a
  slices_S16x7x8192_o5_0_0_S1x7x8192 : S16x7x8192.Slices ![5, 0, 0] S1x7x8192
  inb_S16x512x7_S1x512x7_6_0_0 : ∀ a, (![6, 0, 0] : Fin 3 → Nat) a + S1x512x7.size a ≤ S16x512x7.size a
  slices_S16x7x8192_o6_0_0_S1x7x8192 : S16x7x8192.Slices ![6, 0, 0] S1x7x8192
  inb_S16x512x7_S1x512x7_7_0_0 : ∀ a, (![7, 0, 0] : Fin 3 → Nat) a + S1x512x7.size a ≤ S16x512x7.size a
  slices_S16x7x8192_o7_0_0_S1x7x8192 : S16x7x8192.Slices ![7, 0, 0] S1x7x8192
  inb_S16x512x7_S1x512x7_8_0_0 : ∀ a, (![8, 0, 0] : Fin 3 → Nat) a + S1x512x7.size a ≤ S16x512x7.size a
  slices_S16x7x8192_o8_0_0_S1x7x8192 : S16x7x8192.Slices ![8, 0, 0] S1x7x8192
  inb_S16x512x7_S1x512x7_9_0_0 : ∀ a, (![9, 0, 0] : Fin 3 → Nat) a + S1x512x7.size a ≤ S16x512x7.size a
  slices_S16x7x8192_o9_0_0_S1x7x8192 : S16x7x8192.Slices ![9, 0, 0] S1x7x8192
  inb_S16x512x7_S1x512x7_10_0_0 : ∀ a, (![10, 0, 0] : Fin 3 → Nat) a + S1x512x7.size a ≤ S16x512x7.size a
  slices_S16x7x8192_o10_0_0_S1x7x8192 : S16x7x8192.Slices ![10, 0, 0] S1x7x8192
  inb_S16x512x7_S1x512x7_11_0_0 : ∀ a, (![11, 0, 0] : Fin 3 → Nat) a + S1x512x7.size a ≤ S16x512x7.size a
  slices_S16x7x8192_o11_0_0_S1x7x8192 : S16x7x8192.Slices ![11, 0, 0] S1x7x8192
  inb_S16x512x7_S1x512x7_12_0_0 : ∀ a, (![12, 0, 0] : Fin 3 → Nat) a + S1x512x7.size a ≤ S16x512x7.size a
  slices_S16x7x8192_o12_0_0_S1x7x8192 : S16x7x8192.Slices ![12, 0, 0] S1x7x8192
  inb_S16x512x7_S1x512x7_13_0_0 : ∀ a, (![13, 0, 0] : Fin 3 → Nat) a + S1x512x7.size a ≤ S16x512x7.size a
  slices_S16x7x8192_o13_0_0_S1x7x8192 : S16x7x8192.Slices ![13, 0, 0] S1x7x8192
  inb_S16x512x7_S1x512x7_14_0_0 : ∀ a, (![14, 0, 0] : Fin 3 → Nat) a + S1x512x7.size a ≤ S16x512x7.size a
  slices_S16x7x8192_o14_0_0_S1x7x8192 : S16x7x8192.Slices ![14, 0, 0] S1x7x8192
  inb_S16x512x7_S1x512x7_15_0_0 : ∀ a, (![15, 0, 0] : Fin 3 → Nat) a + S1x512x7.size a ≤ S16x512x7.size a
  slices_S16x7x8192_o15_0_0_S1x7x8192 : S16x7x8192.Slices ![15, 0, 0] S1x7x8192
  inb_S10x512_S10x512_0_0 : ∀ a, (![0, 0] : Fin 2 → Nat) a + S10x512.size a ≤ S10x512.size a
  h_S10x512 : 0 < S10x512.numel
  shapeCasts_S10x512_S10x512 : S10x512.ShapeCasts S10x512
  inb_S10x8192_S10x8192_0_0 : ∀ a, (![0, 0] : Fin 2 → Nat) a + S10x8192.size a ≤ S10x8192.size a
  h_S10x8192 : 0 < S10x8192.numel
  transposes_S10x16384_S16384x10_1_0 : S10x16384.Transposes [1, 0] S16384x10
  dot_S512x7_S7x8192_S512x8192_1_0_0_1_n_n_wf : DotDims.WF S512x7 S7x8192 S512x8192 [1] [0] [0] [1] [] []
  dot_S10x512_S512x8192_S10x8192_1_0_0_1_n_n_wf : DotDims.WF S10x512 S512x8192 S10x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x16384.size a
  hwx0_0 : ∀ i : grid0.Coords, EltTy.bits .f32 = 32 ∨ (Rect.block (s := S16x16384) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x7x3.size a ≤ S16x7x3.size a
  hwx0_1 : ∀ i : grid0.Coords, EltTy.bits .f32 = 32 ∨ (Rect.block (s := S16x7x3) S16x7x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512x7.size a ≤ S16x512x7.size a
  hwx0_2 : ∀ i : grid0.Coords, EltTy.bits .f32 = 32 ∨ (Rect.block (s := S16x512x7) S16x512x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x512.size a ≤ S10x512.size a
  hwx0_3 : ∀ i : grid0.Coords, EltTy.bits .f32 = 32 ∨ (Rect.block (s := S10x512) S10x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x8192.size a ≤ S10x16384.size a
  hwx0_4 : ∀ i : grid0.Coords, EltTy.bits .f32 = 32 ∨ (Rect.block (s := S10x16384) S10x8192.size (cc0_transform_4 i) (hinb0_4 i)).WholeWords (EltTy.packing .f32)

variable [Facts₀]

def dot_S512x7_S7x8192_S512x8192_1_0_0_1_n_n : DotDims S512x7 S7x8192 S512x8192 where
  lhsContracting := [1]
  rhsContracting := [0]
  lhsNonContracting := [0]
  rhsNonContracting := [1]
  lhsBatch := []
  rhsBatch := []
  wf := dot_S512x7_S7x8192_S512x8192_1_0_0_1_n_n_wf
def dot_S10x512_S512x8192_S10x8192_1_0_0_1_n_n : DotDims S10x512 S512x8192 S10x8192 where
  lhsContracting := [1]
  rhsContracting := [0]
  lhsNonContracting := [0]
  rhsNonContracting := [1]
  lhsBatch := []
  rhsBatch := []
  wf := dot_S10x512_S512x8192_S10x8192_1_0_0_1_n_n_wf

abbrev win0_0 : Pipeline.Window sig grid0 :=
  Pipeline.Window.ofSpec (Memref.whole main_arg0) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x7x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x512x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S10x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x16384 : Shape := ⟨2, ![16, 16384]⟩
abbrev S16x7x3 : Shape := ⟨3, ![16, 7, 3]⟩
abbrev S512x16 : Shape := ⟨2, ![512, 16]⟩
abbrev S512 : Shape := ⟨1, ![512]⟩
abbrev S16x7x1 : Shape := ⟨3, ![16, 7, 1]⟩
abbrev S16x7 : Shape := ⟨2, ![16, 7]⟩
abbrev S16x1x16384 : Shape := ⟨3, ![16, 1, 16384]⟩
abbrev S16x7x16384 : Shape := ⟨3, ![16, 7, 16384]⟩
abbrev S_ : Shape := ⟨0, ![]⟩
abbrev S16 : Shape := ⟨1, ![16]⟩
abbrev S1x16 : Shape := ⟨2, ![1, 16]⟩
abbrev S512x16x1 : Shape := ⟨3, ![512, 16, 1]⟩
abbrev S512x16x2 : Shape := ⟨3, ![512, 16, 2]⟩
abbrev S512x16x16384 : Shape := ⟨3, ![512, 16, 16384]⟩
abbrev S512x16384 : Shape := ⟨2, ![512, 16384]⟩
abbrev S10x16384 : Shape := ⟨2, ![10, 16384]⟩
abbrev S512x1 : Shape := ⟨2, ![512, 1]⟩
abbrev S16384x10 : Shape := ⟨2, ![16384, 10]⟩

abbrev nBuf : Space → Nat
  | .hbm => 63
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16x7x3, .f32⟩
  | .hbm, ⟨2, _⟩ => ⟨S512x16, .i32⟩
  | .hbm, ⟨3, _⟩ => ⟨S512, .i32⟩
  | .hbm, ⟨4, _⟩ => ⟨S16x7x1, .f32⟩
  | .hbm, ⟨5, _⟩ => ⟨S16x7, .f32⟩
  | .hbm, ⟨6, _⟩ => ⟨S16x7x1, .f32⟩
  | .hbm, ⟨7, _⟩ => ⟨S16x7x1, .f32⟩
  | .hbm, ⟨8, _⟩ => ⟨S16x7, .f32⟩
  | .hbm, ⟨9, _⟩ => ⟨S16x7x1, .f32⟩
  | .hbm, ⟨10, _⟩ => ⟨S16x7x1, .f32⟩
  | .hbm, ⟨11, _⟩ => ⟨S16x7, .f32⟩
  | .hbm, ⟨12, _⟩ => ⟨S16x7x1, .f32⟩
  | .hbm, ⟨13, _⟩ => ⟨S16x1x16384, .f32⟩
  | .hbm, ⟨14, _⟩ => ⟨S16x7x16384, .f32⟩
  | .hbm, ⟨15, _⟩ => ⟨S16x7x16384, .f32⟩
  | .hbm, ⟨16, _⟩ => ⟨S16x7x16384, .f32⟩
  | .hbm, ⟨17, _⟩ => ⟨S16x7x1, .f32⟩
  | .hbm, ⟨18, _⟩ => ⟨S16x7x16384, .f32⟩
  | .hbm, ⟨19, _⟩ => ⟨S16x7x16384, .f32⟩
  | .hbm, ⟨20, _⟩ => ⟨S16x7x16384, .f32⟩
  | .hbm, ⟨21, _⟩ => ⟨S16x7x16384, .f32⟩
  | .hbm, ⟨22, _⟩ => ⟨S16x7x16384, .f32⟩
  | .hbm, ⟨23, _⟩ => ⟨S16x7x1, .f32⟩
  | .hbm, ⟨24, _⟩ => ⟨S16x7x16384, .f32⟩
  | .hbm, ⟨25, _⟩ => ⟨S16x7x16384, .f32⟩
  | .hbm, ⟨26, _⟩ => ⟨S16x7x16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x7x16384, .f32⟩
  | .hbm, ⟨31, _⟩ => ⟨S16x7x16384, .f32⟩
  | .hbm, ⟨32, _⟩ => ⟨S_, .f32⟩
  | .hbm, ⟨33, _⟩ => ⟨S16x7x16384, .f32⟩
  | .hbm, ⟨34, _⟩ => ⟨S16x7x16384, .f32⟩
  | .hbm, ⟨35, _⟩ => ⟨S16, .i32⟩
  | .hbm, ⟨36, _⟩ => ⟨S1x16, .i32⟩
  | .hbm, ⟨37, _⟩ => ⟨S_, .i32⟩
  | .hbm, ⟨38, _⟩ => ⟨S1x16, .i32⟩
  | .hbm, ⟨39, _⟩ => ⟨S1x16, .i1⟩
  | .hbm, ⟨40, _⟩ => ⟨S_, .i32⟩
  | .hbm, ⟨41, _⟩ => ⟨S1x16, .i32⟩
  | .hbm, ⟨42, _⟩ => ⟨S1x16, .i32⟩
  | .hbm, ⟨43, _⟩ => ⟨S1x16, .i32⟩
  | .hbm, ⟨44, _⟩ => ⟨S_, .i32⟩
  | .hbm, ⟨45, _⟩ => ⟨S512x16, .i32⟩
  | .hbm, ⟨46, _⟩ => ⟨S512x16, .i1⟩
  | .hbm, ⟨47, _⟩ => ⟨S_, .i32⟩
  | .hbm, ⟨48, _⟩ => ⟨S512x16, .i32⟩
  | .hbm, ⟨49, _⟩ => ⟨S512x16, .i32⟩
  | .hbm, ⟨50, _⟩ => ⟨S512x16, .i32⟩
  | .hbm, ⟨51, _⟩ => ⟨S512x16, .i32⟩
  | .hbm, ⟨52, _⟩ => ⟨S512x16x1, .i32⟩
  | .hbm, ⟨53, _⟩ => ⟨S512x16x1, .i32⟩
  | .hbm, ⟨54, _⟩ => ⟨S512x16x2, .i32⟩
  | .hbm, ⟨55, _⟩ => ⟨S512x16x16384, .f32⟩
  | .hbm, ⟨56, _⟩ => ⟨S_, .f32⟩
  | .hbm, ⟨57, _⟩ => ⟨S512x16384, .f32⟩
  | .hbm, ⟨58, _⟩ => ⟨S_, .f32⟩
  | .hbm, ⟨59, _⟩ => ⟨S10x16384, .f32⟩
  | .hbm, ⟨60, _⟩ => ⟨S512x1, .i32⟩
  | .hbm, ⟨61, _⟩ => ⟨S10x16384, .f32⟩
  | .hbm, ⟨62, _⟩ => ⟨S16384x10, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S16x7x3_S16x7x1_0_0_0 : S16x7x3.Slices ![0, 0, 0] S16x7x1
  shapeCasts_S16x7x1_S16x7 : S16x7x1.ShapeCasts S16x7
  bcast_S16x7_S16x7x1_0_1 : S16x7.BroadcastsInDim S16x7x1 (![0, 1] : Fin 2 → Fin S16x7x1.rank)
  slices_S16x7x3_S16x7x1_0_0_1 : S16x7x3.Slices ![0, 0, 1] S16x7x1
  slices_S16x7x3_S16x7x1_0_0_2 : S16x7x3.Slices ![0, 0, 2] S16x7x1
  bcast_S16x16384_S16x1x16384_0_2 : S16x16384.BroadcastsInDim S16x1x16384 (![0, 2] : Fin 2 → Fin S16x1x16384.rank)
  bcast_S16x1x16384_S16x7x16384_0_1_2 : S16x1x16384.BroadcastsInDim S16x7x16384 (![0, 1, 2] : Fin 3 → Fin S16x7x16384.rank)
  bcast_S16x7x1_S16x7x16384_0_1_2 : S16x7x1.BroadcastsInDim S16x7x16384 (![0, 1, 2] : Fin 3 → Fin S16x7x16384.rank)
  bcast_S_S16x7x16384 : S_.BroadcastsInDim S16x7x16384 (![] : Fin 0 → Fin S16x7x16384.rank)
  bcast_S16_S1x16_1 : S16.BroadcastsInDim S1x16 (![1] : Fin 1 → Fin S1x16.rank)
  bcast_S_S1x16 : S_.BroadcastsInDim S1x16 (![] : Fin 0 → Fin S1x16.rank)
  bcast_S_S512x16 : S_.BroadcastsInDim S512x16 (![] : Fin 0 → Fin S512x16.rank)
  bcast_S1x16_S512x16_0_1 : S1x16.BroadcastsInDim S512x16 (![0, 1] : Fin 2 → Fin S512x16.rank)
  bcast_S512x16_S512x16x1_0_1 : S512x16.BroadcastsInDim S512x16x1 (![0, 1] : Fin 2 → Fin S512x16x1.rank)
  concatenates_S512x16x1_S512x16x1_S512x16x2_d2 : Shape.Concatenates [S512x16x1, S512x16x1] S512x16x2 2
  reducesTo_S512x16x16384_S512x16384_d1 : S512x16x16384.ReducesTo [1] S512x16384
  h_S_ : 0 < S_.numel
  bcast_S_S10x16384 : S_.BroadcastsInDim S10x16384 (![] : Fin 0 → Fin S10x16384.rank)
  bcast_S512_S512x1_0 : S512.BroadcastsInDim S512x1 (![0] : Fin 1 → Fin S512x1.rank)
  transposes_S10x16384_S16384x10_1_0 : S10x16384.Transposes [1, 0] S16384x10
  gather_S16x7x16384_S512x16x2_S512x16x16384_2_01_n_n_01_2_1116384_wf : GatherDims.WF S16x7x16384 S512x16x2 S512x16x16384 [2] [0, 1] [] [0, 1] [] 2 ![1, 1, 16384]
  scatter_S10x16384_S512x1_S512x16384_1_0_0_1_wf : ScatterDims.WF S10x16384 S512x1 S512x16384 [1] [0] [0] 1

variable [Facts₀]

def gather_S16x7x16384_S512x16x2_S512x16x16384_2_01_n_n_01_2_1116384 : GatherDims S16x7x16384 S512x16x2 S512x16x16384 where
  offsetDims := [2]
  collapsedSliceDims := [0, 1]
  operandBatchingDims := []
  startIndicesBatchingDims := []
  startIndexMap := [0, 1]
  indexVectorDim := 2
  sliceSizes := ![1, 1, 16384]
  wf := gather_S16x7x16384_S512x16x2_S512x16x16384_2_01_n_n_01_2_1116384_wf
def scatter_S10x16384_S512x1_S512x16384_1_0_0_1 : ScatterDims S10x16384 S512x1 S512x16384 where
  updateWindowDims := [1]
  insertedWindowDims := [0]
  scatterDimsToOperandDims := [0]
  indexVectorDim := 1
  wf := scatter_S10x16384_S512x1_S512x16384_1_0_0_1_wf

class Facts : Prop extends Facts₀ where

variable [Facts]
-- ==== Proof.PreRead.lean ====
/-
  What the precondition says of the condition words: its last conjunct, `all (cond ≥ 0)`, is an `and`-reduction over
  every entry of the signed comparison with zero; the whole predicate being one, every entry reads nonnegative.
-/
import proofs.«402631_j12481174962739_2_alg».proof.Pre_finite_inputs
import Idealize.ShloMosaic.Lib.ReduceAll
import Idealize.ShloMosaic.Lib.ValueIdx

namespace Cert.PreRead

open Idealize.ShloMosaic Idealize.ShloMosaic.ValueIdx Cert.Pre_finite_inputs

instance : Subsingleton S_.Idx := ⟨fun _ _ => funext fun d => d.elim0⟩

/-- Under the precondition every condition word reads nonnegative as a signed integer. -/
theorem cond_nonneg [Facts] {F : FTy → Type} [FloatOps F] (a0 : FVec F S16x16384 .f32) (a1 : FVec F S16x7x3 .f32)
    (a2 : IVec S512x16 32) (a3 : IVec S512 32) (h : fn (F := F) a0 a1 a2 a3 = fun _ => 1#1) (r : Fin 512) (f : Fin 16) :
    0 ≤ (a2 (ix2 r f)).toInt := by
  have h0 := congrFun h ix0
  dsimp only [fn] at h0
  obtain ⟨-, h11⟩ := IntOp.andi_eq_one.1 h0
  have h1 := Host.reduce_andi_all _ _ _ _ _ h11 (ix2 r f)
  have h2 : IntOp.cmpi .sge (a2 (ix2 r f)) (0#32) = 1#1 := h1
  exact IntOp.cmpi_sge.1 h2

end Cert.PreRead
-- ==== Proof.Spec.lean ====
/-
  The function both programs compute, stated once over the argument arrays.

  For feature `f`, fuzzy set `k` and batch column `b` the membership degree is the triangle through
  `(a, 0)`, `(b, 1)`, `(c, 0)` (the three parameters of the set) evaluated at `x[f, b]` and clipped to `[0, 1]`:
  `min 1 (max 0 (min ((x - a) / (b - a)) ((c - x) / (c - b))))`.  Rule `r` names one fuzzy set per feature,
  `cond[r, f]` (read signed, an index past the last set reading the last one); its firing strength on column `b`
  is the minimum over the sixteen features of the named memberships; the result at `(b, c)` is the sum of the
  firing strengths of the rules whose class is `c`.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- The clipped triangular membership of `x[f, b]` in set `k` of feature `f` (for any number `n` of batch columns:
    a block of columns is read by the same formula). -/
def mem {n : Nat} (x : (⟨2, ![16, n]⟩ : Shape).Idx → EReal) (p : (⟨3, ![16, 7, 3]⟩ : Shape).Idx → EReal)
    (f : Fin 16) (k : Fin 7) (b : Fin n) : EReal :=
  min (Ideal.ofBits .f32 0x3F800000#32)
    (max (Ideal.ofBits .f32 0x00000000#32)
      (min (Ideal.div (x (ix2 f b) - p (ix3 f k 0)) (p (ix3 f k 1) - p (ix3 f k 0)))
        (Ideal.div (p (ix3 f k 2) - x (ix2 f b)) (p (ix3 f k 2) - p (ix3 f k 1)))))

/-- The set rule `r` names for feature `f`: the condition word read signed, capped at the last set. -/
def sel (cond : (⟨2, ![512, 16]⟩ : Shape).Idx → BitVec 32) (r : Fin 512) (f : Fin 16) : Fin 7 :=
  ⟨min (cond (ix2 r f)).toInt.toNat 6, by omega⟩

/-- Rule `r`'s firing strength on column `b`: the least of its sixteen named memberships. -/
def firing (x : (⟨2, ![16, 16384]⟩ : Shape).Idx → EReal) (p : (⟨3, ![16, 7, 3]⟩ : Shape).Idx → EReal)
    (cond : (⟨2, ![512, 16]⟩ : Shape).Idx → BitVec 32) (r : Fin 512) (b : Fin 16384) : EReal :=
  (Finset.univ : Finset (Fin 16)).fold min ⊤ fun f => mem x p f (sel cond r f) b

/-- The result: at `(b, c)` the sum of the firing strengths on column `b` of the rules of class `c`. -/
def G (x : (⟨2, ![16, 16384]⟩ : Shape).Idx → EReal) (p : (⟨3, ![16, 7, 3]⟩ : Shape).Idx → EReal)
    (cond : (⟨2, ![512, 16]⟩ : Shape).Idx → BitVec 32) (cls : (⟨1, ![512]⟩ : Shape).Idx → BitVec 32) :
    (⟨2, ![16384, 10]⟩ : Shape).Idx → EReal :=
  fun i => ∑ r : Fin 512, if (cls (ix1 r)).toInt = ((i 1).val : ℤ) then firing x p cond r (i 0) else 0

/-- A sum against an indicator row picks one term: `∑ m, [m = k] · v m = v k` on the extended reals
    (zero times anything is zero there, so no finiteness is asked of `v`). -/
theorem sum_indicator_mul {n : Nat} (k : Fin n) (e : Fin n → EReal) (v : Fin n → EReal)
    (he : ∀ m, e m = if m = k then 1 else 0) : ∑ m : Fin n, e m * v m = v k := by
  rw [Finset.sum_eq_single k]
  · rw [he k, if_pos rfl, one_mul]
  · intro m _ hm
    rw [he m, if_neg hm, zero_mul]
  · intro h
    exact absurd (Finset.mem_univ k) h

/-- A sum against an indicator column keeps the marked terms: `∑ r, [P r] · v r = ∑ r, if P r then v r else 0`. -/
theorem sum_indicator_mul_filter {n : Nat} (P : Fin n → Prop) [DecidablePred P] (e : Fin n → EReal) (v : Fin n → EReal)
    (he : ∀ r, e r = if P r then 1 else 0) : ∑ r : Fin n, e r * v r = ∑ r : Fin n, if P r then v r else 0 := by
  refine Finset.sum_congr rfl fun r _ => ?_
  rw [he r]
  split_ifs
  · rw [one_mul]
  · rw [zero_mul]

/-- The fold of `min` from `⊤` over sixteen terms, written out left to right. -/
theorem fold_min16 (g : Fin 16 → EReal) :
    (Finset.univ : Finset (Fin 16)).fold min ⊤ g
      = min (min (min (min (min (min (min (min (min (min (min (min (min (min (min (g 0) (g 1)) (g 2)) (g 3)) (g 4)) (g 5))
          (g 6)) (g 7)) (g 8)) (g 9)) (g 10)) (g 11)) (g 12)) (g 13)) (g 14)) (g 15) := by
  apply le_antisymm
  · simp only [le_min_iff]
    have h : ∀ f : Fin 16, (Finset.univ : Finset (Fin 16)).fold min ⊤ g ≤ g f := fun f =>
      (Finset.fold_min_le (g f)).mpr (Or.inr ⟨f, Finset.mem_univ f, le_rfl⟩)
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩
  · refine (Finset.le_fold_min _).mpr ⟨le_top, fun f _ => ?_⟩
    fin_cases f <;> simp only [min_le_iff] <;> (repeat (first | exact Or.inr (le_refl _) | apply Or.inl)) <;> exact le_refl _

/-- A 32-bit word is the small natural `c` exactly when it reads `c` signed. -/
theorem eq_ofNat_iff_toInt (a : BitVec 32) (c : Nat) (hc : c < 2147483648) :
    a = BitVec.ofNat 32 c ↔ a.toInt = (c : ℤ) := by
  constructor
  · rintro rfl
    rw [BitVec.toInt_ofNat']
    simp only [Int.bmod]
    omega
  · intro h
    apply BitVec.eq_of_toInt_eq
    rw [h, BitVec.toInt_ofNat']
    simp only [Int.bmod]
    omega

end Cert.Spec

end
-- ==== Proof.RefFiring.lean ====
import proofs.«402631_j12481174962739_2_alg».proof.Proof.Gen.ReferenceIdeal.Read
import proofs.«402631_j12481174962739_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ### The membership stage read at an index

The parameter slices are read through a slice, a reshape and two broadcasts; each composite index map sends
`(f, k, b)` to `(f, k, c)` for the slice's column `c`, and the input's to `(f, b)`. -/

private theorem idx_x_v10 (f : Fin 16) (k : Fin 7) (b : Fin 16384) :
    idx_main_v9 (idx_main_v10 (ix3 f k b)) = ix2 f b := by
  funext a
  refine Fin.ext ?_
  match a with
  | ⟨0, _⟩ => rfl
  | ⟨1, _⟩ => rfl

private theorem idx_x_v17 (f : Fin 16) (k : Fin 7) (b : Fin 16384) :
    idx_main_v9 (idx_main_v17 (ix3 f k b)) = ix2 f b := by
  funext a
  refine Fin.ext ?_
  match a with
  | ⟨0, _⟩ => rfl
  | ⟨1, _⟩ => rfl

/-- `(f * 7 + k) / 7 = f` and `(f * 7 + k) % 7 = k` for `k < 7`: the reshape `[16, 7, 1] → [16, 7]` keeps the coordinates. -/
private theorem idx_p0_v11 (f : Fin 16) (k : Fin 7) (b : Fin 16384) :
    idx_main_v0 (idx_main_v1 (idx_main_v2 (idx_main_v11 (ix3 f k b)))) = ix3 f k 0 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

private theorem idx_p0_v14 (f : Fin 16) (k : Fin 7) (b : Fin 16384) :
    idx_main_v0 (idx_main_v1 (idx_main_v2 (idx_main_v14 (ix3 f k b)))) = ix3 f k 0 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

private theorem idx_p1_v14 (f : Fin 16) (k : Fin 7) (b : Fin 16384) :
    idx_main_v3 (idx_main_v4 (idx_main_v5 (idx_main_v14 (ix3 f k b)))) = ix3 f k 1 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

private theorem idx_p1_v20 (f : Fin 16) (k : Fin 7) (b : Fin 16384) :
    idx_main_v3 (idx_main_v4 (idx_main_v5 (idx_main_v20 (ix3 f k b)))) = ix3 f k 1 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

private theorem idx_p2_v16 (f : Fin 16) (k : Fin 7) (b : Fin 16384) :
    idx_main_v6 (idx_main_v7 (idx_main_v8 (idx_main_v16 (ix3 f k b)))) = ix3 f k 2 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

private theorem idx_p2_v20 (f : Fin 16) (k : Fin 7) (b : Fin 16384) :
    idx_main_v6 (idx_main_v7 (idx_main_v8 (idx_main_v20 (ix3 f k b)))) = ix3 f k 2 := by
  have hf := f.isLt
  have hk := k.isLt
  funext a
  refine Fin.ext ?_
  match a with
  | ⟨0, _⟩ => show (f.val * 7 + k.val) / 7 = f.val; omega
  | ⟨1, _⟩ => show (f.val * 7 + k.val) / 1 % 7 = k.val; omega
  | ⟨2, _⟩ => rfl

/-- The clipped membership stage at `(f, k, b)` is the triangle of set `k` of feature `f` at `x[f, b]`, clipped to `[0, 1]`. -/
theorem v23_apply (x0 : (⟨S16x16384, .f32⟩ : BufTy).Contents (Elt Ideal)) (x1 : (⟨S16x7x3, .f32⟩ : BufTy).Contents (Elt Ideal))
    (f : Fin 16) (k : Fin 7) (b : Fin 16384) :
    val_main_v23 (F := Ideal) x0 x1 (ix3 f k b) = Cert.Spec.mem x0 x1 f k b := by
  simp only [val_main_v23_apply, val_main_call0_v2_apply, val_main_call0_v4_apply, val_main_call0_v3_apply,
    val_main_cst_0_apply, val_main_call0_v1_apply, val_main_call0_v0_apply, val_main_cst_apply, val_main_v22_apply,
    val_main_v15_apply, val_main_v21_apply, val_main_v12_apply, val_main_v14_apply, val_main_v13_apply,
    val_main_v18_apply, val_main_v20_apply, val_main_v19_apply, val_main_v10_apply, val_main_v9_apply,
    val_main_v11_apply, val_main_v16_apply, val_main_v17_apply, val_main_v2_apply, val_main_v1_apply, val_main_v0_apply,
    val_main_v5_apply, val_main_v4_apply, val_main_v3_apply, val_main_v8_apply, val_main_v7_apply, val_main_v6_apply,
    Ideal.minimumf_def, Ideal.maximumf_def, Ideal.subf_def, Ideal.hostDivf_def, Ideal.ofBits_def,
    idx_x_v10, idx_x_v17, idx_p0_v11, idx_p0_v14, idx_p1_v14, idx_p1_v20, idx_p2_v16, idx_p2_v20]
  rfl

/-! ### The start indices read at an index

The index array joins, along its last axis, the feature number (after a wrap that is never taken: a feature number is
not negative) and the rule's condition word (after a wrap that is not taken when the word is not negative). -/

/-- A word that is not negative read signed is not below zero. -/
private theorem cmpi_slt_zero_of_nonneg (w : BitVec 32) (h : 0 ≤ w.toInt) : IntOp.cmpi .slt w 0#32 = 0#1 := by
  have hs : w.slt 0#32 = false := by
    rw [Bool.eq_false_iff]
    intro hc
    rw [BitVec.slt_iff_toInt_lt] at hc
    have : (0#32 : BitVec 32).toInt = 0 := by decide
    omega
  unfold IntOp.cmpi
  simp only [hs]
  rfl

/-- Component 0 of the start index at `(r, f)` is the feature number `f`. -/
theorem v39_apply_zero (x2 : (⟨S512x16, .i32⟩ : BufTy).Contents (Elt Ideal)) (r : Fin 512) (f : Fin 16) :
    val_main_v39 (F := Ideal) x2 (ix3 r f (0 : Fin 2)) = BitVec.ofNat 32 f.val := by
  unfold val_main_v39
  rw [concatenate_pair_apply_left (t := S512x16x2) (s₁ := S512x16x1) (s₂ := S512x16x1) (2 : Fin 3) _ _ _ (ix3 r f (0 : Fin 2)) rfl (ix3 r f (0 : Fin 1))
    (fun b => match b with | ⟨0, _⟩ => rfl | ⟨1, _⟩ => rfl | ⟨2, _⟩ => rfl)]
  simp only [val_main_v37_apply, val_main_v36_apply, val_main_v30_apply, val_main_v27_apply, val_main_v29_apply,
    val_main_v25_apply, val_main_v24_apply, val_main_v26_apply, val_main_v28_apply, val_main_c_apply, val_main_c_1_apply]
  show Scalar.select (IntOp.cmpi .slt (BitVec.ofNat 32 f.val) 0#32) (IntOp.addi (BitVec.ofNat 32 f.val) 16#32)
    (BitVec.ofNat 32 f.val) = BitVec.ofNat 32 f.val
  have hf : (BitVec.ofNat 32 f.val).toInt = (f.val : ℤ) :=
    (Cert.Spec.eq_ofNat_iff_toInt _ f.val (by have := f.isLt; omega)).mp rfl
  rw [cmpi_slt_zero_of_nonneg _ (by rw [hf]; exact Int.natCast_nonneg _), select_zero]

/-- Component 1 of the start index at `(r, f)` is the condition word, when it is not negative. -/
theorem v39_apply_one (x2 : (⟨S512x16, .i32⟩ : BufTy).Contents (Elt Ideal)) (r : Fin 512) (f : Fin 16)
    (h : 0 ≤ (x2 (ix2 r f)).toInt) :
    val_main_v39 (F := Ideal) x2 (ix3 r f (1 : Fin 2)) = x2 (ix2 r f) := by
  unfold val_main_v39
  rw [concatenate_pair_apply_right (t := S512x16x2) (s₁ := S512x16x1) (s₂ := S512x16x1) (2 : Fin 3) _ _ _ (ix3 r f (1 : Fin 2)) rfl rfl (ix3 r f (0 : Fin 1))
    (fun b => match b with | ⟨0, _⟩ => fun _ => rfl | ⟨1, _⟩ => fun _ => rfl | ⟨2, _⟩ => fun hb => absurd rfl hb) rfl]
  simp only [val_main_v38_apply, val_main_v35_apply, val_main_v32_apply, val_main_v34_apply, val_main_v31_apply,
    val_main_v33_apply, val_main_c_2_apply, val_main_c_3_apply]
  have hi : idx_main_v38 (ix3 r f (0 : Fin 1)) = ix2 r f := by
    funext a
    refine Fin.ext ?_
    match a with
    | ⟨0, _⟩ => rfl
    | ⟨1, _⟩ => rfl
  rw [hi, cmpi_slt_zero_of_nonneg _ h, select_zero]

/-! ### The gather read at an index

The gather's dimension numbers collapse the operand's first two axes and take them from the two components of the start
index, each read signed and clamped into its axis; the third axis is the offset axis, read at the result's last coordinate. -/

private abbrev gd : GatherDims S16x7x16384 S512x16x2 S512x16x16384 :=
  gather_S16x7x16384_S512x16x2_S512x16x16384_2_01_n_n_01_2_1116384

private theorem gd_siIdx_zero (r : Fin 512) (f : Fin 16) (b : Fin 16384) (h : List.idxOf (0 : Fin 3) gd.startIndexMap < gd.startIndexMap.length) :
    gd.siIdx (ix3 r f b) ⟨List.idxOf (0 : Fin 3) gd.startIndexMap, h⟩ = ix3 r f (0 : Fin 2) := by
  funext c
  refine Fin.ext ?_
  match c with
  | ⟨0, _⟩ => rfl
  | ⟨1, _⟩ => rfl
  | ⟨2, _⟩ => rfl

private theorem gd_siIdx_one (r : Fin 512) (f : Fin 16) (b : Fin 16384) (h : List.idxOf (1 : Fin 3) gd.startIndexMap < gd.startIndexMap.length) :
    gd.siIdx (ix3 r f b) ⟨List.idxOf (1 : Fin 3) gd.startIndexMap, h⟩ = ix3 r f (1 : Fin 2) := by
  funext c
  refine Fin.ext ?_
  match c with
  | ⟨0, _⟩ => rfl
  | ⟨1, _⟩ => rfl
  | ⟨2, _⟩ => rfl

private theorem gd_start_zero {w : Nat} (idx : IVec S512x16x2 w) (r : Fin 512) (f : Fin 16) (b : Fin 16384) :
    gd.start (ix3 r f b) idx (0 : Fin 3) = min (idx (ix3 r f (0 : Fin 2))).toInt.toNat 15 := by
  unfold GatherDims.start
  rw [dif_pos (show (0 : Fin 3) ∈ gd.startIndexMap from List.mem_cons_self), gd_siIdx_zero]
  rfl

private theorem gd_start_one {w : Nat} (idx : IVec S512x16x2 w) (r : Fin 512) (f : Fin 16) (b : Fin 16384) :
    gd.start (ix3 r f b) idx (1 : Fin 3) = min (idx (ix3 r f (1 : Fin 2))).toInt.toNat 6 := by
  unfold GatherDims.start
  rw [dif_pos (show (1 : Fin 3) ∈ gd.startIndexMap from List.mem_cons_of_mem _ List.mem_cons_self), gd_siIdx_one]
  rfl

private theorem gd_start_two {w : Nat} (idx : IVec S512x16x2 w) (j : S512x16x16384.Idx) :
    gd.start j idx (2 : Fin 3) = 0 := by
  unfold GatherDims.start
  rw [dif_neg (show (2 : Fin 3) ∉ gd.startIndexMap by decide)]

private theorem gd_offCoord_zero (j : S512x16x16384.Idx) : gd.offCoord j (0 : Fin 3) = 0 :=
  gd.offCoord_eq_zero j _ (fun h => ((gd.mem_sKept _).mp h).1 List.mem_cons_self)

private theorem gd_offCoord_one (j : S512x16x16384.Idx) : gd.offCoord j (1 : Fin 3) = 0 :=
  gd.offCoord_eq_zero j _ (fun h => ((gd.mem_sKept _).mp h).1 (List.mem_cons_of_mem _ List.mem_cons_self))

private theorem gd_offCoord_two (r : Fin 512) (f : Fin 16) (b : Fin 16384) : gd.offCoord (ix3 r f b) (2 : Fin 3) = b.val := by
  unfold GatherDims.offCoord
  rw [dif_pos (show (2 : Fin 3) ∈ gd.sKept by decide)]
  rfl

/-- The gathered array at `(r, f, b)` is the membership stage at `(f, k, b)` for the set `k` rule `r` names for feature `f`. -/
theorem v40_apply (x0 : (⟨S16x16384, .f32⟩ : BufTy).Contents (Elt Ideal)) (x1 : (⟨S16x7x3, .f32⟩ : BufTy).Contents (Elt Ideal))
    (x2 : (⟨S512x16, .i32⟩ : BufTy).Contents (Elt Ideal)) (hpos : ∀ (r : Fin 512) (f : Fin 16), 0 ≤ (x2 (ix2 r f)).toInt)
    (r : Fin 512) (f : Fin 16) (b : Fin 16384) :
    val_main_v40 (F := Ideal) x0 x1 x2 (ix3 r f b)
      = val_main_v23 (F := Ideal) x0 x1 (ix3 f (Cert.Spec.sel x2 r f) b) := by
  unfold val_main_v40 Host.gather
  congr 1
  funext a
  refine Fin.ext ?_
  match a with
  | ⟨0, _⟩ =>
    show gd.start (ix3 r f b) (val_main_v39 (F := Ideal) x2) (0 : Fin 3) + gd.batchCoord (ix3 r f b) (0 : Fin 3)
      + gd.offCoord (ix3 r f b) (0 : Fin 3) = f.val
    rw [gd_start_zero, gd.batchCoord_eq_zero _ _ List.not_mem_nil, gd_offCoord_zero, v39_apply_zero]
    have hf : (BitVec.ofNat 32 f.val).toInt = (f.val : ℤ) :=
      (Cert.Spec.eq_ofNat_iff_toInt _ f.val (by have := f.isLt; omega)).mp rfl
    rw [hf]
    have := f.isLt
    omega
  | ⟨1, _⟩ =>
    show gd.start (ix3 r f b) (val_main_v39 (F := Ideal) x2) (1 : Fin 3) + gd.batchCoord (ix3 r f b) (1 : Fin 3)
      + gd.offCoord (ix3 r f b) (1 : Fin 3) = min (x2 (ix2 r f)).toInt.toNat 6
    rw [gd_start_one, gd.batchCoord_eq_zero _ _ List.not_mem_nil, gd_offCoord_one, v39_apply_one x2 r f (hpos r f)]
    rfl
  | ⟨2, _⟩ =>
    show gd.start (ix3 r f b) (val_main_v39 (F := Ideal) x2) (2 : Fin 3) + gd.batchCoord (ix3 r f b) (2 : Fin 3)
      + gd.offCoord (ix3 r f b) (2 : Fin 3) = b.val
    rw [gd_start_two, gd.batchCoord_eq_zero _ _ List.not_mem_nil, gd_offCoord_two]
    omega

/-! ### The minimum over the features -/

/-- The reduction's initial word encodes `+∞`. -/
private theorem ofBits_inf : Ideal.ofBits .f32 0x7F800000#32 = ⊤ := by
  simp [Ideal.ofBits, Ideal.ieee]

private theorem reduces_v41 : S512x16x16384.Reduces [(1 : Fin 3)] S512x16384 := by decide

/-- Result index `(r, b)` with feature `f` put back on the reduced axis is `(r, f, b)`. -/
private theorem lift_v41 (r : Fin 512) (b : Fin 16384) (f : Fin 16) :
    reduces_v41.lift (ix2 r b) f = ix3 r f b := by
  funext c
  refine Fin.ext ?_
  match c with
  | ⟨0, _⟩ => rfl
  | ⟨1, _⟩ => rfl
  | ⟨2, _⟩ => rfl

/-- The reference's minimum over the features of the gathered memberships is the firing strength, when no condition
    word is negative (a negative word would be wrapped by the reference's index normalisation). -/
theorem v41_apply (x0 : (⟨S16x16384, .f32⟩ : BufTy).Contents (Elt Ideal)) (x1 : (⟨S16x7x3, .f32⟩ : BufTy).Contents (Elt Ideal))
    (x2 : (⟨S512x16, .i32⟩ : BufTy).Contents (Elt Ideal)) (hpos : ∀ (r : Fin 512) (f : Fin 16), 0 ≤ (x2 (ix2 r f)).toInt)
    (r : Fin 512) (b : Fin 16384) :
    val_main_v41 (F := Ideal) x0 x1 x2 (ix2 r b) = Cert.Spec.firing x0 x1 x2 r b := by
  unfold val_main_v41
  refine (Host.reduce_eq_fold_single (s := S512x16x16384) (t := S512x16384) (u := S_) (a := (1 : Fin 3))
    (FloatOps.minimumf (F := Ideal) (φ := .f32)) (val_main_v40 (F := Ideal) x0 x1 x2) (val_main_cst_4 (F := Ideal))
    reducesTo_S512x16x16384_S512x16384_d1 reduces_v41 h_S_ (ix2 r b)).trans ?_
  have hfun : (val_main_v40 (F := Ideal) x0 x1 x2 ∘ reduces_v41.lift (ix2 r b))
      = fun f : Fin 16 => Cert.Spec.mem x0 x1 f (Cert.Spec.sel x2 r f) b := by
    funext f
    exact (congrArg (val_main_v40 (F := Ideal) x0 x1 x2) (lift_v41 r b f)).trans
      ((v40_apply x0 x1 x2 hpos r f b).trans (v23_apply x0 x1 f (Cert.Spec.sel x2 r f) b))
  rw [hfun, val_main_cst_4_apply, Ideal.ofBits_def, ofBits_inf]
  rfl

end Cert.ReferenceIdeal.RefValue

end
-- ==== Proof.RefScatter.lean ====
import proofs.«402631_j12481174962739_2_alg».proof.Proof.Gen.ReferenceIdeal.Read
import proofs.«402631_j12481174962739_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! The scatter's dimension numbers send update index `(r, b')` to operand index `(start, b')`: the row comes from the
    scatter index of `r`, read signed; the column is the update's own. -/

/-- On the scattered axis the window starts at the scatter index of the update's row, read signed. -/
theorem scatter_start0 (j : S512x16384.Idx) (idx : IVec S512x1 32) :
    scatter_S10x16384_S512x1_S512x16384_1_0_0_1.start j idx 0 = (idx (ix2 (j 0) 0)).toInt := by
  unfold ScatterDims.start
  rw [dif_pos (show (0 : Fin 2) ∈ scatter_S10x16384_S512x1_S512x16384_1_0_0_1.scatterDimsToOperandDims from
    List.mem_singleton.mpr rfl)]
  congr 2
  funext b
  refine Fin.ext ?_
  match b with
  | ⟨0, _⟩ => rfl
  | ⟨1, _⟩ => rfl

/-- The column axis is not scattered: its window starts at `0`. -/
theorem scatter_start1 (j : S512x16384.Idx) (idx : IVec S512x1 32) :
    scatter_S10x16384_S512x1_S512x16384_1_0_0_1.start j idx 1 = 0 := by
  unfold ScatterDims.start
  rw [dif_neg (show ¬ (1 : Fin 2) ∈ scatter_S10x16384_S512x1_S512x16384_1_0_0_1.scatterDimsToOperandDims by decide)]

/-- The scattered axis is an inserted one: the window has one point there. -/
theorem scatter_window0 (j : S512x16384.Idx) :
    scatter_S10x16384_S512x1_S512x16384_1_0_0_1.window j 0 = 0 := by
  unfold ScatterDims.window
  rw [dif_neg (show ¬ (0 : Fin 2) ∈ scatter_S10x16384_S512x1_S512x16384_1_0_0_1.sKept by decide)]

/-- On the column axis the window coordinate is the update's column. -/
theorem scatter_window1 (j : S512x16384.Idx) :
    scatter_S10x16384_S512x1_S512x16384_1_0_0_1.window j 1 = (j 1).val := by
  unfold ScatterDims.window
  rw [dif_pos (show (1 : Fin 2) ∈ scatter_S10x16384_S512x1_S512x16384_1_0_0_1.sKept by decide)]
  rfl

/-- Update `(r, b')` lands on operand element `(c, b)` exactly when row `r`'s scatter index reads `c` signed and the
    columns agree (an index outside `0 … 9` lands nowhere). -/
theorem scatter_resultIdx_iff (idx : IVec S512x1 32) (r : Fin 512) (b' : Fin 16384) (c : Fin 10) (b : Fin 16384) :
    scatter_S10x16384_S512x1_S512x16384_1_0_0_1.resultIdx? (ix2 r b') idx = some (ix2 c b)
      ↔ (idx (ix2 r 0)).toInt = (c.val : ℤ) ∧ b' = b := by
  have hs0 := scatter_start0 (ix2 r b') idx
  have hs1 := scatter_start1 (ix2 r b') idx
  have hw0 := scatter_window0 (ix2 r b')
  have hw1 := scatter_window1 (ix2 r b')
  have hr : (ix2 r b' : S512x16384.Idx) 0 = r := rfl
  have hb' : ((ix2 r b' : S512x16384.Idx) 1).val = b'.val := rfl
  rw [hr] at hs0
  rw [hb'] at hw1
  have hz0 : S10x16384.size 0 = 10 := rfl
  have hz1 : S10x16384.size 1 = 16384 := rfl
  have hc := c.isLt
  have hbl := b'.isLt
  unfold ScatterDims.resultIdx?
  split_ifs with h
  · rw [Option.some.injEq]
    constructor
    · intro hf
      have h0 := congrArg Fin.val (congrFun hf 0)
      have h1 := congrArg Fin.val (congrFun hf 1)
      have hc0 : ((ix2 c b : S10x16384.Idx) 0).val = c.val := rfl
      have hc1 : ((ix2 c b : S10x16384.Idx) 1).val = b.val := rfl
      rw [hc0] at h0
      rw [hc1] at h1
      simp only [hs0, hw0] at h0
      simp only [hs1, hw1] at h1
      have hh := h 0
      rw [hs0, hw0] at hh
      refine ⟨by omega, Fin.ext (by omega)⟩
    · rintro ⟨ht, rfl⟩
      funext a
      refine Fin.ext ?_
      match a with
      | ⟨0, _⟩ =>
        show (scatter_S10x16384_S512x1_S512x16384_1_0_0_1.start (ix2 r b') idx 0
          + scatter_S10x16384_S512x1_S512x16384_1_0_0_1.window (ix2 r b') 0).toNat = c.val
        rw [hs0, hw0]; omega
      | ⟨1, _⟩ =>
        show (scatter_S10x16384_S512x1_S512x16384_1_0_0_1.start (ix2 r b') idx 1
          + scatter_S10x16384_S512x1_S512x16384_1_0_0_1.window (ix2 r b') 1).toNat = b'.val
        rw [hs1, hw1]; omega
  · constructor
    · intro hf; cases hf
    · rintro ⟨ht, rfl⟩
      refine absurd (fun a => ?_) h
      match a with
      | ⟨0, _⟩ =>
        show 0 ≤ scatter_S10x16384_S512x1_S512x16384_1_0_0_1.start (ix2 r b') idx 0
            + scatter_S10x16384_S512x1_S512x16384_1_0_0_1.window (ix2 r b') 0
          ∧ scatter_S10x16384_S512x1_S512x16384_1_0_0_1.start (ix2 r b') idx 0
            + scatter_S10x16384_S512x1_S512x16384_1_0_0_1.window (ix2 r b') 0 < ((S10x16384.size 0 : ℕ) : ℤ)
        rw [hs0, hw0, hz0]; omega
      | ⟨1, _⟩ =>
        show 0 ≤ scatter_S10x16384_S512x1_S512x16384_1_0_0_1.start (ix2 r b') idx 1
            + scatter_S10x16384_S512x1_S512x16384_1_0_0_1.window (ix2 r b') 1
          ∧ scatter_S10x16384_S512x1_S512x16384_1_0_0_1.start (ix2 r b') idx 1
            + scatter_S10x16384_S512x1_S512x16384_1_0_0_1.window (ix2 r b') 1 < ((S10x16384.size 1 : ℕ) : ℤ)
        rw [hs1, hw1, hz1]; omega

/-- The scatter-add into the zero array read at `(c, b)`: the sum over the rules whose class word reads `c` of the
    scattered rows' entries in column `b`. -/
theorem v44_apply (x0 : (⟨S16x16384, .f32⟩ : BufTy).Contents (Elt Ideal)) (x1 : (⟨S16x7x3, .f32⟩ : BufTy).Contents (Elt Ideal))
    (x2 : (⟨S512x16, .i32⟩ : BufTy).Contents (Elt Ideal)) (x3 : (⟨S512, .i32⟩ : BufTy).Contents (Elt Ideal))
    (c : Fin 10) (b : Fin 16384) :
    val_main_v44 (F := Ideal) x0 x1 x2 x3 (ix2 c b)
      = ∑ r : Fin 512, if (x3 (ix1 r)).toInt = (c.val : ℤ) then val_main_v41 (F := Ideal) x0 x1 x2 (ix2 r b) else 0 := by
  unfold val_main_v44
  generalize val_main_v41 (F := Ideal) x0 x1 x2 = upd
  show Ideal.hostScatterAdd scatter_S10x16384_S512x1_S512x16384_1_0_0_1 (val_main_v42 (F := Ideal))
    (val_main_v43 (F := Ideal) x3) upd (ix2 c b) = _
  unfold Ideal.hostScatterAdd
  rw [val_main_v42_apply, val_main_cst_5_apply, Ideal.ofBits_def, Ideal.ofBits_zero_f32, zero_add, Finset.sum_filter,
    sum_idx2]
  refine Finset.sum_congr rfl fun r _ => ?_
  have hrow : idx_main_v43 (ix2 r (0 : Fin 1)) = ix1 r := funext fun a => Fin.ext (by match a with | ⟨0, _⟩ => rfl)
  simp only [scatter_resultIdx_iff, val_main_v43_apply, hrow]
  by_cases hP : (x3 (ix1 r)).toInt = (c.val : ℤ)
  · simp only [hP, true_and, if_true, Finset.sum_ite_eq', Finset.mem_univ]
  · simp only [hP, false_and, if_false, Finset.sum_const_zero]

/-- The reference's scatter-add into a zero array, transposed, read at `(b, c)`: the sum over the rules whose class
    word reads `c` of the scattered rows' entries in column `b` (a class word outside `0 … 9` lands nowhere). -/
theorem v45_apply (x0 : (⟨S16x16384, .f32⟩ : BufTy).Contents (Elt Ideal)) (x1 : (⟨S16x7x3, .f32⟩ : BufTy).Contents (Elt Ideal))
    (x2 : (⟨S512x16, .i32⟩ : BufTy).Contents (Elt Ideal)) (x3 : (⟨S512, .i32⟩ : BufTy).Contents (Elt Ideal)) (i : S16384x10.Idx) :
    val_main_v45 (F := Ideal) x0 x1 x2 x3 i
      = ∑ r : Fin 512, if (x3 (ix1 r)).toInt = ((i 1).val : ℤ) then val_main_v41 (F := Ideal) x0 x1 x2 (ix2 r (i 0)) else 0 := by
  have hi : idx_main_v45 i = ix2 (n0 := 10) (n1 := 16384) (i 1) (i 0) :=
    funext fun a => Fin.ext (by match a with | ⟨0, _⟩ => rfl | ⟨1, _⟩ => rfl)
  rw [val_main_v45_apply, hi]
  exact v44_apply x0 x1 x2 x3 (i 1) (i 0)

end Cert.ReferenceIdeal.RefValue

end
-- ==== Proof.RefValue.lean ====
import proofs.«402631_j12481174962739_2_alg».proof.Proof.RefFiring
import proofs.«402631_j12481174962739_2_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

/-- The reference's result is the specified function of its arguments, when no condition word is negative. -/
theorem ref_eq (x0 : (⟨S16x16384, .f32⟩ : BufTy).Contents (Elt Ideal)) (x1 : (⟨S16x7x3, .f32⟩ : BufTy).Contents (Elt Ideal))
    (x2 : (⟨S512x16, .i32⟩ : BufTy).Contents (Elt Ideal)) (x3 : (⟨S512, .i32⟩ : BufTy).Contents (Elt Ideal))
    (hpos : ∀ (r : Fin 512) (f : Fin 16), 0 ≤ (x2 (ix2 r f)).toInt) :
    val_main_v45 (F := Ideal) x0 x1 x2 x3 = Cert.Spec.G x0 x1 x2 x3 := by
  funext i
  rw [v45_apply]
  unfold Cert.Spec.G
  refine Finset.sum_congr rfl fun r _ => ?_
  split_ifs
  · exact v41_apply x0 x1 x2 hpos r (i 0)
  · rfl

end Cert.ReferenceIdeal.RefValue

end
-- ==== Proof.KPayload.lean ====
import proofs.«402631_j12481174962739_2_alg».proof.Proof.Gen.KernelIdeal.Frame
import proofs.«402631_j12481174962739_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

namespace Payload

section Layout
variable {α : Type}

/-- The batch row `[16, 8192]` cast to `[16, 1, 8192]` reads, at `(f, u, b)`, the operand at `(f, b)`. -/
theorem cast_x_apply (x : S16x8192.Idx → α) (h : S16x8192.ShapeCasts S16x1x8192) (f : Fin 16) (u : Fin 1) (b : Fin 8192) :
    shapeCast S16x1x8192 x h (ix3 f u b) = x (ix2 f b) :=
  shapeCast_apply x h _ _ (by
    have hu : u.val = 0 := by omega
    rw [Shape.rowMajor_val_three, Shape.rowMajor_val_two]
    show f.val * 8192 + b.val = (f.val * 1 + u.val) * 8192 + b.val
    rw [hu, Nat.mul_one, Nat.add_zero])

/-- A `[16, 7]` array cast to `[16, 7, 1]` reads, at `(f, k, u)`, the operand at `(f, k)`. -/
theorem cast_ab_ab1_apply (x : S16x7.Idx → α) (h : S16x7.ShapeCasts S16x7x1) (f : Fin 16) (k : Fin 7) (u : Fin 1) :
    shapeCast S16x7x1 x h (ix3 f k u) = x (ix2 f k) :=
  shapeCast_apply x h _ _ (by
    have hu : u.val = 0 := by omega
    rw [Shape.rowMajor_val_three, Shape.rowMajor_val_two]
    show f.val * 7 + k.val = (f.val * 7 + k.val) * 1 + u.val
    rw [hu, Nat.mul_one, Nat.add_zero])

/-- A `[16, 7, 1]` array cast to `[16, 7]` reads, at `(f, k)`, the operand at `(f, k, 0)`. -/
theorem cast_ab1_ab_apply (x : S16x7x1.Idx → α) (h : S16x7x1.ShapeCasts S16x7) (f : Fin 16) (k : Fin 7) :
    shapeCast S16x7 x h (ix2 f k) = x (ix3 f k (0 : Fin 1)) :=
  shapeCast_apply x h _ _ (by
    rw [Shape.rowMajor_val_three, Shape.rowMajor_val_two]
    show (f.val * 7 + k.val) * 1 + 0 = f.val * 7 + k.val
    rw [Nat.mul_one, Nat.add_zero])

/-- The column `j` of the parameter array `[16, 7, 3]`, kept as `[16, 7, 1]`, reads at `(f, k, u)` the parameter `(f, k, j)`. -/
theorem slice_col_apply (o : Nat) (ho : o < 3) (x : S16x7x3.Idx → α) (h : S16x7x3.Slices ![0, 0, o] S16x7x1)
    (f : Fin 16) (k : Fin 7) (u : Fin 1) :
    extractStridedSlice S16x7x1 ![0, 0, o] x h (ix3 f k u) = x (ix3 f k (⟨o, ho⟩ : Fin 3)) :=
  extractStridedSlice_apply _ x h _ _ fun a => match a with
    | ⟨0, _⟩ => by show f.val = 0 + f.val; omega
    | ⟨1, _⟩ => by show k.val = 0 + k.val; omega
    | ⟨2, _⟩ => by show o = o + u.val; omega

/-- The batch row as `[16, 1, 8192]` broadcast over the seven sets reads, at `(f, k, b)`, the operand at `(f, 0, b)`. -/
theorem bcast_x_apply (v : S16x1x8192.Idx → α) (h : S16x1x8192.Broadcasts S16x7x8192) (f : Fin 16) (k : Fin 7) (b : Fin 8192) :
    broadcastTo S16x7x8192 v h (ix3 f k b) = v (ix3 f (0 : Fin 1) b) :=
  broadcastTo_apply v h _ _ fun a => match a with
    | ⟨0, _⟩ => rfl
    | ⟨1, _⟩ => rfl
    | ⟨2, _⟩ => rfl

/-- A parameter column `[16, 7, 1]` broadcast over the batch columns reads, at `(f, k, b)`, the operand at `(f, k, 0)`. -/
theorem bcast_p_apply (v : S16x7x1.Idx → α) (h : S16x7x1.Broadcasts S16x7x8192) (f : Fin 16) (k : Fin 7) (b : Fin 8192) :
    broadcastTo S16x7x8192 v h (ix3 f k b) = v (ix3 f k (0 : Fin 1)) :=
  broadcastTo_apply v h _ _ fun a => match a with
    | ⟨0, _⟩ => rfl
    | ⟨1, _⟩ => rfl
    | ⟨2, _⟩ => rfl

end Layout

/-- The membership array the body computes is the clipped triangle of the specification, entry by entry. -/
theorem pay2_apply (x0 : Vec Ideal S16x8192 .f32) (x1 : Vec Ideal S16x7x3 .f32) (f : Fin 16) (k : Fin 7) (b : Fin 8192) :
    k0_pay2 (F := Ideal) x0 x1 (ix3 f k b) = Cert.Spec.mem x0 x1 f k b := by
  unfold k0_pay2 Cert.Spec.mem
  simp only [minimumf_apply, maximumf_apply, divf_apply, subf_apply, broadcast_apply, bcast_x_apply, bcast_p_apply,
    cast_x_apply, cast_ab_ab1_apply, cast_ab1_ab_apply, slice_col_apply 0 (by omega), slice_col_apply 1 (by omega),
    slice_col_apply 2 (by omega)]
  rfl

section SlabProduct

theorem lhs_slab_0 (i : S512x8192.Idx) (q : dot_S512x7_S7x8192_S512x8192_1_0_0_1_n_n.contr.Idx) :
    (dot_S512x7_S7x8192_S512x8192_1_0_0_1_n_n.lhsIdx i q 0).val = (i 0).val := by
  unfold DotDims.lhsIdx
  rw [dif_neg (show ¬(0 : Fin S512x7.rank) ∈ dot_S512x7_S7x8192_S512x8192_1_0_0_1_n_n.lhsBatch by decide), dif_pos (show (0 : Fin S512x7.rank) ∈ dot_S512x7_S7x8192_S512x8192_1_0_0_1_n_n.lhsNonContracting by decide)]
  rfl
theorem lhs_slab_1 (i : S512x8192.Idx) (q : dot_S512x7_S7x8192_S512x8192_1_0_0_1_n_n.contr.Idx) :
    (dot_S512x7_S7x8192_S512x8192_1_0_0_1_n_n.lhsIdx i q 1).val = (q ⟨0, by decide⟩).val :=
  dot_S512x7_S7x8192_S512x8192_1_0_0_1_n_n.lhsIdx_val_of_single rfl i q
theorem rhs_slab_0 (i : S512x8192.Idx) (q : dot_S512x7_S7x8192_S512x8192_1_0_0_1_n_n.contr.Idx) :
    (dot_S512x7_S7x8192_S512x8192_1_0_0_1_n_n.rhsIdx i q 0).val = (q ⟨0, by decide⟩).val :=
  dot_S512x7_S7x8192_S512x8192_1_0_0_1_n_n.rhsIdx_val_of_single rfl i q
theorem rhs_slab_1 (i : S512x8192.Idx) (q : dot_S512x7_S7x8192_S512x8192_1_0_0_1_n_n.contr.Idx) :
    (dot_S512x7_S7x8192_S512x8192_1_0_0_1_n_n.rhsIdx i q 1).val = (i 1).val := by
  unfold DotDims.rhsIdx
  rw [dif_neg (show ¬(1 : Fin S7x8192.rank) ∈ dot_S512x7_S7x8192_S512x8192_1_0_0_1_n_n.rhsBatch by decide), dif_pos (show (1 : Fin S7x8192.rank) ∈ dot_S512x7_S7x8192_S512x8192_1_0_0_1_n_n.rhsNonContracting by decide)]
  rfl

/-- One feature's product: the one-hot slab `[1, 512, 7]` of feature `o` against the membership slab `[o, :, :]`, into
    zero, reads at `(r, b)` the sum over the seven sets of the rule's one-hot entry times the membership. -/
theorem slab_matmul_apply (oh : Vec Ideal S1x512x7 .f32) (M : FVec Ideal S16x7x8192 .f32) (o : Fin 16)
    (h : S16x7x8192.Slices ![o.val, 0, 0] S1x7x8192) (r : Fin 512) (b : Fin 8192) :
    matmul dot_S512x7_S7x8192_S512x8192_1_0_0_1_n_n none
        (shapeCast S512x7 oh shapeCasts_S1x512x7_S512x7 : FVec Ideal S512x7 .f32)
        (shapeCast S7x8192 (extractStridedSlice S1x7x8192 ![o.val, 0, 0] M h) shapeCasts_S1x7x8192_S7x8192)
        (constant (F := Ideal) S512x8192 .f32 0x00000000#32) (ix2 r b)
      = ∑ k : Fin 7, oh (ix3 (0 : Fin 1) r k) * M (ix3 o k b) := by
  simp only [matmul]
  rw [Ideal.matmul_constant_zero_apply, ← Equiv.sum_comp (contrEquiv1 dot_S512x7_S7x8192_S512x8192_1_0_0_1_n_n 7 rfl rfl).symm]
  refine Finset.sum_congr rfl fun k _ => ?_
  have hk := contrEquiv1_symm_val dot_S512x7_S7x8192_S512x8192_1_0_0_1_n_n 7 rfl rfl k
  have el : dot_S512x7_S7x8192_S512x8192_1_0_0_1_n_n.lhsIdx (ix2 r b) ((contrEquiv1 dot_S512x7_S7x8192_S512x8192_1_0_0_1_n_n 7 rfl rfl).symm k) = ix2 r k := funext fun a => Fin.ext (by
    match a with
    | ⟨0, _⟩ => exact lhs_slab_0 _ _
    | ⟨1, _⟩ => exact (lhs_slab_1 _ _).trans hk)
  have er : dot_S512x7_S7x8192_S512x8192_1_0_0_1_n_n.rhsIdx (ix2 r b) ((contrEquiv1 dot_S512x7_S7x8192_S512x8192_1_0_0_1_n_n 7 rfl rfl).symm k) = ix2 k b := funext fun a => Fin.ext (by
    match a with
    | ⟨0, _⟩ => exact (rhs_slab_0 _ _).trans hk
    | ⟨1, _⟩ => exact rhs_slab_1 _ _)
  rw [el, er, shapeCast_1ab_ab_apply, shapeCast_1ab_ab_apply]
  refine congrArg (oh (ix3 (0 : Fin 1) r k) * ·) ?_
  exact extractStridedSlice_apply _ M h _ _ fun a => match a with
    | ⟨0, _⟩ => by show o.val = o.val + 0; omega
    | ⟨1, _⟩ => by show k.val = 0 + k.val; omega
    | ⟨2, _⟩ => by show b.val = 0 + b.val; omega

end SlabProduct

/-- Rule `r`'s pick, through its one-hot row `s`, among the memberships `M` of feature `o` on column `b`. -/
def pick (M : FVec Ideal S16x7x8192 .f32) (s : Vec Ideal S1x512x7 .f32) (o : Fin 16) (r : Fin 512) (b : Fin 8192) : EReal :=
  ∑ k : Fin 7, s (ix3 (0 : Fin 1) r k) * M (ix3 o k b)

/-- The slab product read at `(r, b)` is the pick. -/
theorem slab_matmul_pick (oh : Vec Ideal S1x512x7 .f32) (M : FVec Ideal S16x7x8192 .f32) (o : Fin 16)
    (h : S16x7x8192.Slices ![o.val, 0, 0] S1x7x8192) (r : Fin 512) (b : Fin 8192) :
    matmul dot_S512x7_S7x8192_S512x8192_1_0_0_1_n_n none
        (shapeCast S512x7 oh shapeCasts_S1x512x7_S512x7 : FVec Ideal S512x7 .f32)
        (shapeCast S7x8192 (extractStridedSlice S1x7x8192 ![o.val, 0, 0] M h) shapeCasts_S1x7x8192_S7x8192)
        (constant (F := Ideal) S512x8192 .f32 0x00000000#32) (ix2 r b)
      = pick M oh o r b :=
  slab_matmul_apply oh M o h r b

/-- The first two features: the least of their two picks. -/
theorem pay3_apply (v0 : Vec Ideal S16x8192 .f32) (v1 : Vec Ideal S16x7x3 .f32) (s0 s1 : Vec Ideal S1x512x7 .f32)
    (r : Fin 512) (b : Fin 8192) :
    k0_pay3 (F := Ideal) v0 v1 s0 s1 (ix2 r b)
      = min (pick (k0_pay2 v0 v1) s0 0 r b) (pick (k0_pay2 v0 v1) s1 1 r b) := by
  unfold k0_pay3
  refine (minimumf_apply _ _ _).trans ?_
  exact congrArg₂ min (slab_matmul_pick s0 (k0_pay2 v0 v1) 0 slices_S16x7x8192_o0_0_0_S1x7x8192 r b)
    (slab_matmul_pick s1 (k0_pay2 v0 v1) 1 slices_S16x7x8192_o1_0_0_S1x7x8192 r b)

/-- Features two to seven: the running least `a` lowered by their six picks, one after the other. -/
theorem pay4_apply (M : FVec Ideal S16x7x8192 .f32) (a : FVec Ideal S512x8192 .f32)
    (s2 s3 s4 s5 s6 s7 : Vec Ideal S1x512x7 .f32) (r : Fin 512) (b : Fin 8192) :
    k0_pay4 (F := Ideal) M a s2 s3 s4 s5 s6 s7 (ix2 r b)
      = min (min (min (min (min (min (a (ix2 r b)) (pick M s2 2 r b)) (pick M s3 3 r b)) (pick M s4 4 r b))
          (pick M s5 5 r b)) (pick M s6 6 r b)) (pick M s7 7 r b) := by
  unfold k0_pay4
  refine (minimumf_apply _ _ _).trans ?_
  refine congrArg₂ min ?_ (slab_matmul_pick s7 M 7 slices_S16x7x8192_o7_0_0_S1x7x8192 r b)
  refine (minimumf_apply _ _ _).trans ?_
  refine congrArg₂ min ?_ (slab_matmul_pick s6 M 6 slices_S16x7x8192_o6_0_0_S1x7x8192 r b)
  refine (minimumf_apply _ _ _).trans ?_
  refine congrArg₂ min ?_ (slab_matmul_pick s5 M 5 slices_S16x7x8192_o5_0_0_S1x7x8192 r b)
  refine (minimumf_apply _ _ _).trans ?_
  refine congrArg₂ min ?_ (slab_matmul_pick s4 M 4 slices_S16x7x8192_o4_0_0_S1x7x8192 r b)
  refine (minimumf_apply _ _ _).trans ?_
  refine congrArg₂ min ?_ (slab_matmul_pick s3 M 3 slices_S16x7x8192_o3_0_0_S1x7x8192 r b)
  refine (minimumf_apply _ _ _).trans ?_
  exact congrArg₂ min rfl (slab_matmul_pick s2 M 2 slices_S16x7x8192_o2_0_0_S1x7x8192 r b)

/-- Features eight to thirteen: the running least `a` lowered by their six picks, one after the other. -/
theorem pay5_apply (M : FVec Ideal S16x7x8192 .f32) (a : FVec Ideal S512x8192 .f32)
    (s8 s9 s10 s11 s12 s13 : Vec Ideal S1x512x7 .f32) (r : Fin 512) (b : Fin 8192) :
    k0_pay5 (F := Ideal) M a s8 s9 s10 s11 s12 s13 (ix2 r b)
      = min (min (min (min (min (min (a (ix2 r b)) (pick M s8 8 r b)) (pick M s9 9 r b)) (pick M s10 10 r b))
          (pick M s11 11 r b)) (pick M s12 12 r b)) (pick M s13 13 r b) := by
  unfold k0_pay5
  refine (minimumf_apply _ _ _).trans ?_
  refine congrArg₂ min ?_ (slab_matmul_pick s13 M 13 slices_S16x7x8192_o13_0_0_S1x7x8192 r b)
  refine (minimumf_apply _ _ _).trans ?_
  refine congrArg₂ min ?_ (slab_matmul_pick s12 M 12 slices_S16x7x8192_o12_0_0_S1x7x8192 r b)
  refine (minimumf_apply _ _ _).trans ?_
  refine congrArg₂ min ?_ (slab_matmul_pick s11 M 11 slices_S16x7x8192_o11_0_0_S1x7x8192 r b)
  refine (minimumf_apply _ _ _).trans ?_
  refine congrArg₂ min ?_ (slab_matmul_pick s10 M 10 slices_S16x7x8192_o10_0_0_S1x7x8192 r b)
  refine (minimumf_apply _ _ _).trans ?_
  refine congrArg₂ min ?_ (slab_matmul_pick s9 M 9 slices_S16x7x8192_o9_0_0_S1x7x8192 r b)
  refine (minimumf_apply _ _ _).trans ?_
  exact congrArg₂ min rfl (slab_matmul_pick s8 M 8 slices_S16x7x8192_o8_0_0_S1x7x8192 r b)

section ClassProduct

theorem lhs_class_0 (i : S10x8192.Idx) (q : dot_S10x512_S512x8192_S10x8192_1_0_0_1_n_n.contr.Idx) :
    (dot_S10x512_S512x8192_S10x8192_1_0_0_1_n_n.lhsIdx i q 0).val = (i 0).val := by
  unfold DotDims.lhsIdx
  rw [dif_neg (show ¬(0 : Fin S10x512.rank) ∈ dot_S10x512_S512x8192_S10x8192_1_0_0_1_n_n.lhsBatch by decide), dif_pos (show (0 : Fin S10x512.rank) ∈ dot_S10x512_S512x8192_S10x8192_1_0_0_1_n_n.lhsNonContracting by decide)]
  rfl
theorem lhs_class_1 (i : S10x8192.Idx) (q : dot_S10x512_S512x8192_S10x8192_1_0_0_1_n_n.contr.Idx) :
    (dot_S10x512_S512x8192_S10x8192_1_0_0_1_n_n.lhsIdx i q 1).val = (q ⟨0, by decide⟩).val :=
  dot_S10x512_S512x8192_S10x8192_1_0_0_1_n_n.lhsIdx_val_of_single rfl i q
theorem rhs_class_0 (i : S10x8192.Idx) (q : dot_S10x512_S512x8192_S10x8192_1_0_0_1_n_n.contr.Idx) :
    (dot_S10x512_S512x8192_S10x8192_1_0_0_1_n_n.rhsIdx i q 0).val = (q ⟨0, by decide⟩).val :=
  dot_S10x512_S512x8192_S10x8192_1_0_0_1_n_n.rhsIdx_val_of_single rfl i q
theorem rhs_class_1 (i : S10x8192.Idx) (q : dot_S10x512_S512x8192_S10x8192_1_0_0_1_n_n.contr.Idx) :
    (dot_S10x512_S512x8192_S10x8192_1_0_0_1_n_n.rhsIdx i q 1).val = (i 1).val := by
  unfold DotDims.rhsIdx
  rw [dif_neg (show ¬(1 : Fin S512x8192.rank) ∈ dot_S10x512_S512x8192_S10x8192_1_0_0_1_n_n.rhsBatch by decide), dif_pos (show (1 : Fin S512x8192.rank) ∈ dot_S10x512_S512x8192_S10x8192_1_0_0_1_n_n.rhsNonContracting by decide)]
  rfl

/-- The class product `[10, 512] · [512, 8192]` into zero reads, at `(c, b)`, the sum over the rules of the class entry
    times the rule's value on the column. -/
theorem class_matmul_apply (A : FVec Ideal S10x512 .f32) (B : FVec Ideal S512x8192 .f32) (c : Fin 10) (b : Fin 8192) :
    matmul dot_S10x512_S512x8192_S10x8192_1_0_0_1_n_n none A B (constant (F := Ideal) S10x8192 .f32 0x00000000#32) (ix2 c b)
      = ∑ r : Fin 512, A (ix2 c r) * B (ix2 r b) := by
  simp only [matmul]
  rw [Ideal.matmul_constant_zero_apply, ← Equiv.sum_comp (contrEquiv1 dot_S10x512_S512x8192_S10x8192_1_0_0_1_n_n 512 rfl rfl).symm]
  refine Finset.sum_congr rfl fun k _ => ?_
  have hk := contrEquiv1_symm_val dot_S10x512_S512x8192_S10x8192_1_0_0_1_n_n 512 rfl rfl k
  have el : dot_S10x512_S512x8192_S10x8192_1_0_0_1_n_n.lhsIdx (ix2 c b) ((contrEquiv1 dot_S10x512_S512x8192_S10x8192_1_0_0_1_n_n 512 rfl rfl).symm k) = ix2 c k := funext fun a => Fin.ext (by
    match a with
    | ⟨0, _⟩ => exact lhs_class_0 _ _
    | ⟨1, _⟩ => exact (lhs_class_1 _ _).trans hk)
  have er : dot_S10x512_S512x8192_S10x8192_1_0_0_1_n_n.rhsIdx (ix2 c b) ((contrEquiv1 dot_S10x512_S512x8192_S10x8192_1_0_0_1_n_n 512 rfl rfl).symm k) = ix2 k b := funext fun a => Fin.ext (by
    match a with
    | ⟨0, _⟩ => exact (rhs_class_0 _ _).trans hk
    | ⟨1, _⟩ => exact rhs_class_1 _ _)
  rw [el, er]

end ClassProduct

/-- The last two features and the class product: the class row against the running least `a` lowered by the two last picks. -/
theorem pay1_apply (M : FVec Ideal S16x7x8192 .f32) (a : FVec Ideal S512x8192 .f32) (s14 s15 : Vec Ideal S1x512x7 .f32)
    (w : Vec Ideal S10x512 .f32) (c : Fin 10) (b : Fin 8192) :
    k0_pay1 (F := Ideal) M a s14 s15 w (ix2 c b)
      = ∑ r : Fin 512, w (ix2 c r) * min (min (a (ix2 r b)) (pick M s14 14 r b)) (pick M s15 15 r b) := by
  unfold k0_pay1
  refine (class_matmul_apply _ _ c b).trans ?_
  refine Finset.sum_congr rfl fun r _ => ?_
  refine congrArg₂ (· * ·) (congrFun (shapeCast_self w shapeCasts_S10x512_S10x512) (ix2 c r)) ?_
  refine (minimumf_apply _ _ _).trans ?_
  refine congrArg₂ min ?_ (slab_matmul_pick s15 M 15 slices_S16x7x8192_o15_0_0_S1x7x8192 r b)
  refine (minimumf_apply _ _ _).trans ?_
  exact congrArg₂ min rfl (slab_matmul_pick s14 M 14 slices_S16x7x8192_o14_0_0_S1x7x8192 r b)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The load of slab `[o, :, :]` of the one-hot array reads, at `(0, r, k)`, the array at `(o, r, k)`. -/
theorem ld_slab_apply (x2 : Vec Ideal S16x512x7 .f32) (o : Fin 16)
    (inb : ∀ a, (![o.val, 0, 0] : Fin 3 → Nat) a + S1x512x7.size a ≤ S16x512x7.size a) (r : Fin 512) (k : Fin 7) :
    View.ld x2 (Rect.unit (s := S16x512x7) ![o.val, 0, 0] S1x512x7.size inb) (ix3 (0 : Fin 1) r k) = x2 (ix3 o r k) := by
  show x2 _ = x2 _
  refine congrArg x2 (funext fun a => Fin.ext ?_)
  match a with
  | ⟨0, _⟩ => show o.val + 1 * 0 = o.val; omega
  | ⟨1, _⟩ => show 0 + 1 * r.val = r.val; omega
  | ⟨2, _⟩ => show 0 + 1 * k.val = k.val; omega

/-- A pick through a loaded slab among the computed memberships is the sum of the specification: the rule's one-hot
    row of feature `o` against the feature's seven membership degrees. -/
theorem pick_ld_mem (x0 : Vec Ideal S16x8192 .f32) (x1 : Vec Ideal S16x7x3 .f32) (x2 : Vec Ideal S16x512x7 .f32) (o : Fin 16)
    (inb : ∀ a, (![o.val, 0, 0] : Fin 3 → Nat) a + S1x512x7.size a ≤ S16x512x7.size a) (r : Fin 512) (b : Fin 8192) :
    pick (k0_pay2 x0 x1) (View.ld x2 (Rect.unit (s := S16x512x7) ![o.val, 0, 0] S1x512x7.size inb)) o r b
      = ∑ k : Fin 7, x2 (ix3 o r k) * Cert.Spec.mem x0 x1 o k b := by
  unfold pick
  exact Finset.sum_congr rfl fun k _ => congrArg₂ (· * ·) (ld_slab_apply x2 o inb r k) (pay2_apply x0 x1 o k b)

end Payload

open Payload

/-- What the body leaves in the output block, at class row `c` and column `b` of the block: the class row of the
    fourth operand against, rule by rule, the least over the features of the one-hot rows against the memberships. -/
theorem out0_4_apply (x0 : Vec Ideal S16x8192 .f32) (x1 : Vec Ideal S16x7x3 .f32) (x2 : Vec Ideal S16x512x7 .f32)
    (x3 : Vec Ideal S10x512 .f32) (c : Fin 10) (b : Fin 8192) :
    out0_4 (F := Ideal) x0 x1 x2 x3 (ix2 c b)
      = ∑ r : Fin 512, x3 (ix2 c r) *
          ((Finset.univ : Finset (Fin 16)).fold min ⊤ fun f => ∑ k : Fin 7, x2 (ix3 f r k) * Cert.Spec.mem x0 x1 f k b) := by
  unfold out0_4
  rw [View.canon_unit_zero (S := S10x8192) zero_off2]
  rw [View.ld_unit_zero (S := S16x8192) zero_off2, View.ld_unit_zero (S := S16x7x3) zero_off3,
    View.ld_unit_zero (S := S10x512) zero_off2]
  rw [pay1_apply]
  refine Finset.sum_congr rfl fun r _ => congrArg (x3 (ix2 c r) * ·) ?_
  rw [pay5_apply, pay4_apply, pay3_apply, Cert.Spec.fold_min16]
  refine congrArg₂ min ?_ (pick_ld_mem x0 x1 x2 15 _ r b)
  refine congrArg₂ min ?_ (pick_ld_mem x0 x1 x2 14 _ r b)
  refine congrArg₂ min ?_ (pick_ld_mem x0 x1 x2 13 _ r b)
  refine congrArg₂ min ?_ (pick_ld_mem x0 x1 x2 12 _ r b)
  refine congrArg₂ min ?_ (pick_ld_mem x0 x1 x2 11 _ r b)
  refine congrArg₂ min ?_ (pick_ld_mem x0 x1 x2 10 _ r b)
  refine congrArg₂ min ?_ (pick_ld_mem x0 x1 x2 9 _ r b)
  refine congrArg₂ min ?_ (pick_ld_mem x0 x1 x2 8 _ r b)
  refine congrArg₂ min ?_ (pick_ld_mem x0 x1 x2 7 _ r b)
  refine congrArg₂ min ?_ (pick_ld_mem x0 x1 x2 6 _ r b)
  refine congrArg₂ min ?_ (pick_ld_mem x0 x1 x2 5 _ r b)
  refine congrArg₂ min ?_ (pick_ld_mem x0 x1 x2 4 _ r b)
  refine congrArg₂ min ?_ (pick_ld_mem x0 x1 x2 3 _ r b)
  refine congrArg₂ min ?_ (pick_ld_mem x0 x1 x2 2 _ r b)
  exact congrArg₂ min (pick_ld_mem x0 x1 x2 0 _ r b) (pick_ld_mem x0 x1 x2 1 _ r b)

end Cert.KernelIdeal.KValue

end
-- ==== Proof.KHost.lean ====
/-
  The two one-hot arrays the host builds before the kernel, read at an index: the condition words, clamped into
  `0 … 6`, against the set numbers; the class words against the class numbers.
-/
import proofs.«402631_j12481174962739_2_alg».proof.Proof.Gen.KernelIdeal.Frame
import proofs.«402631_j12481174962739_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Affine
import Idealize.ShloMosaic.Lib.WordArith

noncomputable section

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The two host-built arrays as terms of the argument arrays -/

/-- The one-hot array of the conditions: the condition words clamped into `0 … 6` (signed), transposed to
    `[feature, rule]`, compared entry by entry with the set numbers `0 … 6`, the bit read as a float. -/
theorem V_v8_eq (c : Dev nD) :
    (V m c main_v8 : S16x512x7.Idx → EReal)
      = uitofp (F := Ideal) .f32 (cmpi .eq
          (broadcastInDim S16x512x7 ![0, 1, 2] bcast_S16x512x1_S16x512x7_0_1_2
            (broadcastInDim S16x512x1 ![0, 1] bcast_S16x512_S16x512x1_0_1
              (transpose S16x512 [1, 0]
                (minsi (broadcastInDim S512x16 ![] bcast_S_S512x16 (constantI S_ 32 6#32))
                  (maxsi (broadcastInDim S512x16 ![] bcast_S_S512x16 (constantI S_ 32 0#32)) (m ((c.tc : Thread nD τ).loc main_arg2))))
                transposes_S512x16_S16x512_1_0)))
          (broadcastInDim S16x512x7 ![0, 1, 2] bcast_S1x1x7_S16x512x7_0_1_2 (broadcastInDim S1x1x7 ![2] bcast_S7_S1x1x7_2 (iotaInDim S7 32 0)))) := by
  dsimp only [V, V0]
  simp only [hostOps0, hostOps0_1, hostOps0_2, List.flatten_cons, List.flatten_nil, List.append_nil, List.cons_append, List.nil_append]
  after_results
  rfl

/-- The class one-hot array: the class words compared entry by entry with the class numbers `0 … 9`, the bit read
    as a float. -/
theorem V_v15_eq (c : Dev nD) :
    (V m c main_v15 : S10x512.Idx → EReal)
      = uitofp (F := Ideal) .f32 (cmpi .eq
          (broadcastInDim S10x512 ![0, 1] bcast_S1x512_S10x512_0_1 (broadcastInDim S1x512 ![1] bcast_S512_S1x512_1 (m ((c.tc : Thread nD τ).loc main_arg3))))
          (broadcastInDim S10x512 ![0, 1] bcast_S10x1_S10x512_0_1 (broadcastInDim S10x1 ![0] bcast_S10_S10x1_0 (iotaInDim S10 32 0)))) := by
  dsimp only [V, V0]
  simp only [hostOps0, hostOps0_1, hostOps0_2, List.flatten_cons, List.flatten_nil, List.append_nil, List.cons_append, List.nil_append]
  after_results

/-! ## The layout operations read at an index -/

theorem idx_cond (x : IVec S512x16 32) (f : Fin 16) (r : Fin 512) (k : Fin 7) :
    (broadcastInDim S16x512x7 ![0, 1, 2] bcast_S16x512x1_S16x512x7_0_1_2
      (broadcastInDim S16x512x1 ![0, 1] bcast_S16x512_S16x512x1_0_1
        (transpose S16x512 [1, 0] x transposes_S512x16_S16x512_1_0))) (ix3 f r k) = x (ix2 r f) := by
  dsimp only [broadcastInDim, transpose]
  congr 1
  funext a
  match a with
  | ⟨0, _⟩ => rfl
  | ⟨1, _⟩ => rfl

theorem idx_iota7 (f : Fin 16) (r : Fin 512) (k : Fin 7) :
    (broadcastInDim S16x512x7 ![0, 1, 2] bcast_S1x1x7_S16x512x7_0_1_2 (broadcastInDim S1x1x7 ![2] bcast_S7_S1x1x7_2 (iotaInDim S7 32 0))) (ix3 f r k)
      = BitVec.ofNat 32 k.val := by
  rfl

theorem idx_cls (x : IVec S512 32) (c' : Fin 10) (r : Fin 512) :
    (broadcastInDim S10x512 ![0, 1] bcast_S1x512_S10x512_0_1 (broadcastInDim S1x512 ![1] bcast_S512_S1x512_1 x)) (ix2 c' r) = x (ix1 r) := by
  dsimp only [broadcastInDim]
  congr 1
  funext a
  match a with
  | ⟨0, _⟩ => rfl

theorem idx_iota10 (c' : Fin 10) (r : Fin 512) :
    (broadcastInDim S10x512 ![0, 1] bcast_S10x1_S10x512_0_1 (broadcastInDim S10x1 ![0] bcast_S10_S10x1_0 (iotaInDim S10 32 0))) (ix2 c' r)
      = BitVec.ofNat 32 c'.val := by
  rfl

/-! ## The words -/

/-- A one-bit word read as a float at the ideal instance: one for `1`, zero for `0`. -/
theorem uitofp_bit_one : FloatOps.uitofp (F := Ideal) .f32 (1#1 : BitVec 1) = (1 : EReal) := by
  show (((1#1 : BitVec 1).toNat : ℝ) : EReal) = 1
  simp
theorem uitofp_bit_zero : FloatOps.uitofp (F := Ideal) .f32 (0#1 : BitVec 1) = (0 : EReal) := by
  show (((0#1 : BitVec 1).toNat : ℝ) : EReal) = 0
  simp

/-- The signed clamp of a word into `0 … 6` is the set number `k` exactly when `k` is the word's signed reading
    capped below at zero and above at six. -/
theorem clamp_eq_iff (w : BitVec 32) (k : Fin 7) :
    IntOp.minsi 6#32 (IntOp.maxsi 0#32 w) = BitVec.ofNat 32 k.val ↔ k.val = min w.toInt.toNat 6 := by
  have h2 := WordArith.two_mul_toNat_maxsi_zero_lt w
  unfold Scalar.maxsi at h2
  have hN : (IntOp.minsi 6#32 (IntOp.maxsi 0#32 w)).toNat = min 6 w.toInt.toNat := by
    rw [WordArith.toNat_minsi_of_lt _ _ (by decide) (by omega), WordArith.toNat_maxsi_zero]
    rfl
  have hk := k.isLt
  constructor
  · intro h
    have := congrArg BitVec.toNat h
    rw [hN, WordArith.toNat_ofNat_of_lt _ (by omega)] at this
    omega
  · intro h
    apply BitVec.eq_of_toNat_eq
    rw [hN, WordArith.toNat_ofNat_of_lt _ (by omega)]
    omega

/-! ## The two arrays at an index -/

/-- The one-hot array the host builds from the clamped condition words, as the region finds it: at `(f, r, k)` one
    when `k` is the set rule `r` names for feature `f`, else zero. -/
theorem V_onehot (c : Dev nD) (f : Fin 16) (r : Fin 512) (k : Fin 7) :
    (V m c main_v8 : S16x512x7.Idx → EReal) (ix3 f r k)
      = (if k = Cert.Spec.sel (m ((c.tc : Thread nD τ).loc main_arg2)) r f then (1 : EReal) else 0) := by
  rw [V_v8_eq]
  show FloatOps.uitofp (F := Ideal) .f32 (IntOp.cmpi .eq
      ((broadcastInDim S16x512x7 ![0, 1, 2] bcast_S16x512x1_S16x512x7_0_1_2
        (broadcastInDim S16x512x1 ![0, 1] bcast_S16x512_S16x512x1_0_1
          (transpose S16x512 [1, 0]
            (minsi (broadcastInDim S512x16 ![] bcast_S_S512x16 (constantI S_ 32 6#32))
              (maxsi (broadcastInDim S512x16 ![] bcast_S_S512x16 (constantI S_ 32 0#32)) (m ((c.tc : Thread nD τ).loc main_arg2))))
            transposes_S512x16_S16x512_1_0))) (ix3 f r k))
      ((broadcastInDim S16x512x7 ![0, 1, 2] bcast_S1x1x7_S16x512x7_0_1_2 (broadcastInDim S1x1x7 ![2] bcast_S7_S1x1x7_2 (iotaInDim S7 32 0))) (ix3 f r k))) = _
  rw [idx_cond, idx_iota7]
  show FloatOps.uitofp (F := Ideal) .f32 (IntOp.cmpi .eq
      (IntOp.minsi 6#32 (IntOp.maxsi 0#32 (m ((c.tc : Thread nD τ).loc main_arg2) (ix2 r f)))) (BitVec.ofNat 32 k.val)) = _
  by_cases h : k = Cert.Spec.sel (m ((c.tc : Thread nD τ).loc main_arg2)) r f
  · rw [if_pos h, IntOp.cmpi_eq.2 ((clamp_eq_iff _ k).2 (by rw [h]; rfl)), uitofp_bit_one]
  · have hne : ¬ IntOp.cmpi .eq (IntOp.minsi 6#32 (IntOp.maxsi 0#32 (m ((c.tc : Thread nD τ).loc main_arg2) (ix2 r f))))
        (BitVec.ofNat 32 k.val) = 1#1 := fun e =>
      h (Fin.ext ((clamp_eq_iff _ k).1 (IntOp.cmpi_eq.1 e)))
    rw [if_neg h, eq_zero_of_ne_one hne, uitofp_bit_zero]

/-- The class one-hot array the host builds, as the region finds it: at `(c', r)` one when rule `r`'s class word
    reads `c'`, else zero. -/
theorem V_clsonehot (c : Dev nD) (c' : Fin 10) (r : Fin 512) :
    (V m c main_v15 : S10x512.Idx → EReal) (ix2 c' r)
      = (if (m ((c.tc : Thread nD τ).loc main_arg3) (ix1 r)).toInt = (c'.val : ℤ) then (1 : EReal) else 0) := by
  rw [V_v15_eq]
  show FloatOps.uitofp (F := Ideal) .f32 (IntOp.cmpi .eq
      ((broadcastInDim S10x512 ![0, 1] bcast_S1x512_S10x512_0_1 (broadcastInDim S1x512 ![1] bcast_S512_S1x512_1 (m ((c.tc : Thread nD τ).loc main_arg3)))) (ix2 c' r))
      ((broadcastInDim S10x512 ![0, 1] bcast_S10x1_S10x512_0_1 (broadcastInDim S10x1 ![0] bcast_S10_S10x1_0 (iotaInDim S10 32 0))) (ix2 c' r))) = _
  rw [idx_cls, idx_iota10]
  have hc := c'.isLt
  by_cases h : (m ((c.tc : Thread nD τ).loc main_arg3) (ix1 r)).toInt = (c'.val : ℤ)
  · rw [if_pos h, IntOp.cmpi_eq.2 ((Cert.Spec.eq_ofNat_iff_toInt _ _ (by omega)).2 h), uitofp_bit_one]
  · have hne : ¬ IntOp.cmpi .eq (m ((c.tc : Thread nD τ).loc main_arg3) (ix1 r)) (BitVec.ofNat 32 c'.val) = 1#1 := fun e =>
      h ((Cert.Spec.eq_ofNat_iff_toInt _ _ (by omega)).1 (IntOp.cmpi_eq.1 e))
    rw [if_neg h, eq_zero_of_ne_one hne, uitofp_bit_zero]

end Cert.KernelIdeal.KValue

end
-- ==== Proof.KArray.lean ====
import proofs.«402631_j12481174962739_2_alg».proof.Proof.KPayload
import proofs.«402631_j12481174962739_2_alg».proof.Proof.KHost

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's result before the final transpose: at class row `c` and batch column `j` the specified value at
    `(j, c)`. -/
def GT (x : (⟨2, ![16, 16384]⟩ : Shape).Idx → EReal) (p : (⟨3, ![16, 7, 3]⟩ : Shape).Idx → EReal)
    (cond : (⟨2, ![512, 16]⟩ : Shape).Idx → BitVec 32) (cls : (⟨1, ![512]⟩ : Shape).Idx → BitVec 32) :
    (⟨2, ![10, 16384]⟩ : Shape).Idx → EReal :=
  fun i => Cert.Spec.G x p cond cls (ix2 (n0 := 16384) (n1 := 10) (i 1) (i 0))

/-- The output block at `(c', b)` is the specified value at `(j, c')` whenever the block of `x` reads column `j` of the
    array at its column `b`, the parameter block is the parameter array, and the two one-hot operands are the
    indicators of the named sets and of the rules' classes: each inner sum against a one-hot row picks the named
    membership, the outer sum against the class row keeps the rules of class `c'`. -/
theorem out_at_coords (x : (⟨2, ![16, 16384]⟩ : Shape).Idx → EReal) (p : (⟨3, ![16, 7, 3]⟩ : Shape).Idx → EReal)
    (cond : (⟨2, ![512, 16]⟩ : Shape).Idx → BitVec 32) (cls : (⟨1, ![512]⟩ : Shape).Idx → BitVec 32)
    (x0 : Vec Ideal S16x8192 .f32) (x1 : Vec Ideal S16x7x3 .f32) (x2 : Vec Ideal S16x512x7 .f32) (x3 : Vec Ideal S10x512 .f32)
    (c' : Fin 10) (b : Fin 8192) (j : Fin 16384)
    (h0 : ∀ f : Fin 16, x0 (ix2 f b) = x (ix2 f j))
    (h1 : x1 = p)
    (h2 : ∀ (f : Fin 16) (r : Fin 512) (k : Fin 7), x2 (ix3 f r k) = if k = Cert.Spec.sel cond r f then (1 : EReal) else 0)
    (h3 : ∀ r : Fin 512, x3 (ix2 c' r) = if (cls (ix1 r)).toInt = (c'.val : ℤ) then (1 : EReal) else 0) :
    out0_4 (F := Ideal) x0 x1 x2 x3 (ix2 c' b) = Cert.Spec.G x p cond cls (ix2 j c') := by
  rw [out0_4_apply]
  unfold Cert.Spec.G
  rw [Cert.Spec.sum_indicator_mul_filter (fun r : Fin 512 => (cls (ix1 r)).toInt = (c'.val : ℤ)) (fun r => x3 (ix2 c' r)) _ h3]
  refine Finset.sum_congr rfl fun r _ => ?_
  refine if_congr Iff.rfl ?_ rfl
  unfold Cert.Spec.firing
  congr 1
  funext f
  rw [Cert.Spec.sum_indicator_mul (Cert.Spec.sel cond r f) (fun k => x2 (ix3 f r k)) (fun k => Cert.Spec.mem x0 x1 f k b) (fun k => h2 f r k)]
  unfold Cert.Spec.mem
  rw [h0 f, h1]

/-! ## The blocks the body finds -/

/-- The printed index maps over the two grid points: the batch operands move with the point along the column axis,
    the other three operands are whole. -/
theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The four argument arrays, and the four input blocks at a point, at their literal types. -/
abbrev xarr (c : Dev nD) : S16x16384.Idx → EReal := m ((c.tc : Thread nD τ).loc main_arg0)
abbrev parr (c : Dev nD) : S16x7x3.Idx → EReal := m ((c.tc : Thread nD τ).loc main_arg1)
abbrev condarr (c : Dev nD) : S512x16.Idx → BitVec 32 := m ((c.tc : Thread nD τ).loc main_arg2)
abbrev clsarr (c : Dev nD) : S512.Idx → BitVec 32 := m ((c.tc : Thread nD τ).loc main_arg3)
abbrev xblk (c : Dev nD) (t : Fin cfg0.N) : Vec Ideal S16x8192 .f32 := iblk m c 0 t
abbrev pblk (c : Dev nD) (t : Fin cfg0.N) : Vec Ideal S16x7x3 .f32 := iblk m c 1 t
abbrev oblk (c : Dev nD) (t : Fin cfg0.N) : Vec Ideal S16x512x7 .f32 := iblk m c 2 t
abbrev cblk (c : Dev nD) (t : Fin cfg0.N) : Vec Ideal S10x512 .f32 := iblk m c 3 t

/-- The block of `x` at point `t` reads the array at the same row and at column `t * 8192 +` the block's column. -/
theorem xblk_apply (c : Dev nD) (t : Fin cfg0.N) (y : S16x8192.Idx) (i : S16x16384.Idx)
    (h0 : (i 0).val = (y 0).val) (h1 : (i 1).val = t.val * 8192 + (y 1).val) :
    xblk m c t y = xarr m c i := by
  obtain ⟨e00, e01, -⟩ := idx_facts t
  refine Eq.trans ?_ (congrFun (V_main_arg0 m c) i)
  show V m c main_arg0 (((cfg0.win 0).blk t).view.emb y) = V m c main_arg0 i
  refine congrArg _ (funext fun a => Fin.ext ?_)
  match a with
  | ⟨0, _⟩ => show win0_0.index t (0 : Fin 2) * 16 + 1 * (y 0).val = (i 0).val; omega
  | ⟨1, _⟩ => show win0_0.index t (1 : Fin 2) * 8192 + 1 * (y 1).val = (i 1).val; omega

/-- The parameter block is the whole parameter array at every point. -/
theorem pblk_eq (c : Dev nD) (t : Fin cfg0.N) : pblk m c t = parr m c := by
  obtain ⟨-, -, e10, e11, e12, -⟩ := idx_facts t
  refine Eq.trans ?_ (V_main_arg1 m c)
  funext y
  show V m c main_arg1 (((cfg0.win 1).blk t).view.emb y) = V m c main_arg1 y
  refine congrArg _ (funext fun a => Fin.ext ?_)
  match a with
  | ⟨0, _⟩ => show win0_1.index t (0 : Fin 3) * 16 + 1 * (y 0).val = (y 0).val; omega
  | ⟨1, _⟩ => show win0_1.index t (1 : Fin 3) * 7 + 1 * (y 1).val = (y 1).val; omega
  | ⟨2, _⟩ => show win0_1.index t (2 : Fin 3) * 3 + 1 * (y 2).val = (y 2).val; omega

/-- The one-hot block is the whole one-hot array at every point. -/
theorem oblk_eq (c : Dev nD) (t : Fin cfg0.N) : oblk m c t = (V m c main_v8 : S16x512x7.Idx → EReal) := by
  obtain ⟨-, -, -, -, -, e20, e21, e22, -⟩ := idx_facts t
  funext y
  show V m c main_v8 (((cfg0.win 2).blk t).view.emb y) = V m c main_v8 y
  refine congrArg _ (funext fun a => Fin.ext ?_)
  match a with
  | ⟨0, _⟩ => show win0_2.index t (0 : Fin 3) * 16 + 1 * (y 0).val = (y 0).val; omega
  | ⟨1, _⟩ => show win0_2.index t (1 : Fin 3) * 512 + 1 * (y 1).val = (y 1).val; omega
  | ⟨2, _⟩ => show win0_2.index t (2 : Fin 3) * 7 + 1 * (y 2).val = (y 2).val; omega

/-- The class one-hot block is the whole class one-hot array at every point. -/
theorem cblk_eq (c : Dev nD) (t : Fin cfg0.N) : cblk m c t = (V m c main_v15 : S10x512.Idx → EReal) := by
  obtain ⟨-, -, -, -, -, -, -, -, e30, e31, -⟩ := idx_facts t
  funext y
  show V m c main_v15 (((cfg0.win 3).blk t).view.emb y) = V m c main_v15 y
  refine congrArg _ (funext fun a => Fin.ext ?_)
  match a with
  | ⟨0, _⟩ => show win0_3.index t (0 : Fin 2) * 10 + 1 * (y 0).val = (y 0).val; omega
  | ⟨1, _⟩ => show win0_3.index t (1 : Fin 2) * 512 + 1 * (y 1).val = (y 1).val; omega

/-! ## What each point writes back -/

/-- The body's output block at `y` is the pre-transpose result at the array index `i` the block's `y` sits at: the four
    blocks are read as above, the two host-built operands as the indicators they are. -/
theorem out_at (c : Dev nD) (t : Fin cfg0.N) (y : S10x8192.Idx) (i : S10x16384.Idx)
    (h0 : (i 0).val = (y 0).val) (h1 : (i 1).val = t.val * 8192 + (y 1).val) :
    out0_4 (F := Ideal) (xblk m c t) (pblk m c t) (oblk m c t) (cblk m c t) y
      = GT (xarr m c) (parr m c) (condarr m c) (clsarr m c) i := by
  obtain ⟨c', b, rfl⟩ : ∃ (c' : Fin 10) (b : Fin 8192), y = ix2 c' b := ⟨y 0, y 1, eq_ix2 y⟩
  obtain ⟨c'', j, rfl⟩ : ∃ (c'' : Fin 10) (j : Fin 16384), i = ix2 c'' j := ⟨i 0, i 1, eq_ix2 i⟩
  obtain rfl : c'' = c' := Fin.ext h0
  show _ = Cert.Spec.G (xarr m c) (parr m c) (condarr m c) (clsarr m c) (ix2 j c'')
  refine out_at_coords (xarr m c) (parr m c) (condarr m c) (clsarr m c) (xblk m c t) (pblk m c t) (oblk m c t) (cblk m c t) c'' b j
    (fun f => xblk_apply m c t (ix2 f b) (ix2 f j) rfl h1) (pblk_eq m c t) (fun f r k => ?_) (fun r => ?_)
  · rw [oblk_eq]; exact V_onehot m c f r k
  · rw [cblk_eq]; exact V_clsonehot m c c'' r

/-- What point `t` writes back is block `t` of the pre-transpose result. -/
theorem flushed_eq (c : Dev nD) (t : Fin cfg0.N) :
    (dats m 0 c).flushed 4 t
      = ((cfg0.win 4).blk t).view.read (Elt Ideal) (GT (xarr m c) (parr m c) (condarr m c) (clsarr m c)) := by
  show (cfg0.win 4).cut (grid0.coords t) ((dats m 0 c).after 4 t) = _
  rw [after0_4]
  obtain ⟨-, -, -, -, -, -, -, -, -, -, e40, e41⟩ := idx_facts t
  funext y
  show out0_4 (F := Ideal) (xblk m c t) (pblk m c t) (oblk m c t) (cblk m c t) y
    = GT (xarr m c) (parr m c) (condarr m c) (clsarr m c) (((cfg0.win 4).blk t).view.emb y)
  refine out_at m c t y _ ?_ ?_
  · show win0_4.index t (0 : Fin 2) * 10 + 1 * (y 0).val = (y 0).val; omega
  · show win0_4.index t (1 : Fin 2) * 8192 + 1 * (y 1).val = t.val * 8192 + (y 1).val; omega

/-! ## The array after the region -/

/-- An index of the array is in point `t`'s block iff each coordinate is in the block's range on its axis. -/
theorem mem_blk (t : Fin cfg0.N) (i : S10x16384.Idx) :
    i ∈ ((cfg0.win 4).blk t).view.set ↔ ∀ a : Fin 2, win0_4.index t a * S10x8192.size a ≤ (i a).val
      ∧ (i a).val < win0_4.index t a * S10x8192.size a + S10x8192.size a := by
  show i ∈ ((View.whole main_v16).slice (win0_4.rect t)).set ↔ _
  rw [View.set_slice_whole, Rect.mem_set_unit]
  exact Iff.rfl

/-- Every index of the array is in some point's block: column `j` in that of point `j / 8192`. -/
theorem cover (i : S10x16384.Idx) :
    ∃ t : Fin cfg0.N, (cfg0.win 4).flush t = true ∧ i ∈ ((cfg0.win 4).blk t).view.set := by
  have hi0 : (i 0).val < 10 := (i 0).isLt
  have hi1 : (i 1).val < 16384 := (i 1).isLt
  have hN : cfg0.N = 2 := N_0
  obtain ⟨t, ht⟩ : ∃ t : Fin cfg0.N, t.val = (i 1).val / 8192 := ⟨⟨(i 1).val / 8192, by omega⟩, rfl⟩
  obtain ⟨-, -, -, -, -, -, -, -, -, -, e40, e41⟩ := idx_facts t
  refine ⟨t, flush0_4 t, ?_⟩
  rw [mem_blk]
  intro a
  match a with
  | ⟨0, _⟩ =>
    show win0_4.index t (0 : Fin 2) * 10 ≤ (i 0).val ∧ (i 0).val < win0_4.index t (0 : Fin 2) * 10 + 10
    omega
  | ⟨1, _⟩ =>
    show win0_4.index t (1 : Fin 2) * 8192 ≤ (i 1).val ∧ (i 1).val < win0_4.index t (1 : Fin 2) * 8192 + 8192
    omega

/-- So the output array ends holding the pre-transpose result. -/
theorem final (c : Dev nD) :
    (dats m 0 c).arrAt 4 cfg0.N = GT (xarr m c) (parr m c) (condarr m c) (clsarr m c) :=
  (dats m 0 c).arrAt_eq_of_cover 4 (GT (xarr m c) (parr m c) (condarr m c) (clsarr m c))
    (fun t _ => flushed_eq m c t) cover

/-! ## The host's transpose after the region, and the run -/

/-- The result array: the host transposes the region's output, so at `(j, c')` it holds the specified value. -/
theorem tail_eq (c : Dev nD) :
    Pipeline.afterTail₀ cfgs (dats m) 0 (V0 m) [hostOps1] c main_v17
      = Cert.Spec.G (xarr m c) (parr m c) (condarr m c) (clsarr m c) := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = GT (xarr m c) (parr m c) (condarr m c) (clsarr m c) :=
    (Pipeline.withArrays_arr spec0 launch0.win.arr_inj c _ _ 4).trans (final m c)
  rw [e]
  funext i
  obtain ⟨j, c', rfl⟩ : ∃ (j : Fin 16384) (c' : Fin 10), i = ix2 j c' := ⟨i 0, i 1, eq_ix2 i⟩
  refine (transpose_apply [1, 0] _ transposes_S10x16384_S16384x10_1_0 (ix2 j c') (ix2 c' j) (fun b => ?_)).trans rfl
  match b with
  | ⟨0, _⟩ => rfl
  | ⟨1, _⟩ => rfl

/-- The kernel's run: every weakly fair execution ends with the result at the specified function of the argument
    arrays, and the arguments unchanged. -/
theorem run : θ_run defs (onTc (τ := τ) (main (F := Ideal))) ⟨m, fun _ => 0, ρ⟩ (fun r => ∀ c : Dev nD,
      r.2.mem ((c.tc : Thread nD τ).loc main_v17)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  The certificate's claim: the three frames, the (empty) idealization ledger, and the equality of results.

  Both idealized programs compute, at `(b, c)`, the sum over the rules of class `c` of the rule's firing strength on
  batch column `b`: the least, over the sixteen features, of the clipped triangular membership of `x[f, b]` in the
  fuzzy set the rule names for feature `f` (`Cert.Spec.G`).  The kernel names the set by a one-hot row contracted
  against the memberships, after clamping the condition word into `0 … 6`; the reference indexes the membership
  array, a negative word first having the number of sets added to it.  For a nonnegative word both read the set
  `min word 6`; the precondition's conjunct `all (rule_conditions ≥ 0)` is used exactly there, on the reference's
  side.  The class sum is a one-hot matrix product in the kernel and a scatter-add in the reference, equal for every
  class word (a word outside `0 … 9` contributes to no class in either).  No finiteness is used: on the extended
  reals zero times anything is zero, and sums and minima may be regrouped freely.
-/
import proofs.«402631_j12481174962739_2_alg».proof.Defs
import proofs.«402631_j12481174962739_2_alg».proof.Proof.Gen.Kernel
import proofs.«402631_j12481174962739_2_alg».proof.Proof.Gen.Kernel.Skeleton
import proofs.«402631_j12481174962739_2_alg».proof.Proof.Gen.Kernel.Launch
import proofs.«402631_j12481174962739_2_alg».proof.Proof.Gen.Kernel.Points
import proofs.«402631_j12481174962739_2_alg».proof.Proof.Gen.Kernel.Frame
import proofs.«402631_j12481174962739_2_alg».proof.Proof.Gen.KernelIdeal
import proofs.«402631_j12481174962739_2_alg».proof.Proof.Gen.KernelIdeal.Skeleton
import proofs.«402631_j12481174962739_2_alg».proof.Proof.Gen.KernelIdeal.Launch
import proofs.«402631_j12481174962739_2_alg».proof.Proof.Gen.KernelIdeal.Points
import proofs.«402631_j12481174962739_2_alg».proof.Proof.Gen.KernelIdeal.Frame
import proofs.«402631_j12481174962739_2_alg».proof.Proof.Gen.ReferenceIdeal
import proofs.«402631_j12481174962739_2_alg».proof.Proof.Gen.ReferenceIdeal.Run
import proofs.«402631_j12481174962739_2_alg».proof.Proof.Gen.ReferenceIdeal.Read
import proofs.«402631_j12481174962739_2_alg».proof.Proof.Gen.Pre_finite_inputs
import proofs.«402631_j12481174962739_2_alg».proof.Proof.PreRead
import proofs.«402631_j12481174962739_2_alg».proof.Proof.RefValue
import proofs.«402631_j12481174962739_2_alg».proof.Proof.KArray
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `Cert.Spec.G` of the (agreeing) argument arrays; the reference's needs the
    condition words nonnegative, which the precondition says. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hpos : ∀ (r : Fin 512) (f : Fin 16),
      0 ≤ (m' ((c.tc : Thread Cert.ReferenceIdeal.nD Cert.ReferenceIdeal.τ).loc Cert.ReferenceIdeal.main_arg2) (ix2 r f)).toInt := by
    intro r f
    rw [(hagree c).2.2.1]
    exact Cert.PreRead.cond_nonneg _ _ _ _ (hpre c) r f
  rw [Cert.ReferenceIdeal.Read.val_main_v45_eq, Cert.ReferenceIdeal.RefValue.ref_eq _ _ _ _ hpos,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
